-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x16x16 : Shape := ⟨4, ![256, 256, 16, 16]⟩
abbrev S_ : Shape := ⟨0, ![]⟩

class Facts : Prop where
  bcast_S_S256x256x16x16 : S_.BroadcastsInDim S256x256x16x16 (![] : Fin 0 → Fin S256x256x16x16.rank)
  reducesTo_S256x256x16x16_S_d0_1_2_3 : S256x256x16x16.ReducesTo [0, 1, 2, 3] S_
  h_S_ : 0 < S_.numel

variable [Facts]

def fn {F : FTy → Type} [FloatOps F] (main_arg0 : FVec F S256x256x16x16 .f32) (main_arg1 : FVec F S256x256x16x16 .f32) : IVec S_ 1 :=
  let main_v0 : FVec F S256x256x16x16 .f32 := Host.absf main_arg0
  let main_cst : FVec F S_ .f32 := constant S_ .f32 0x7F800000#32
  let main_v1 : FVec F S256x256x16x16 .f32 := broadcastInDim S256x256x16x16 ![] bcast_S_S256x256x16x16 main_cst
  let main_v2 : IVec S256x256x16x16 1 := cmpf .olt main_v0 main_v1
  let main_c : IVec S_ 1 := constantI S_ 1 1#1
  let main_v3 : IVec S_ 1 := (fun x v => Host.reduce IntOp.andi x v reducesTo_S256x256x16x16_S_d0_1_2_3 h_S_) main_v2 main_c
  let main_v4 : FVec F S256x256x16x16 .f32 := Host.absf main_arg1
  let main_cst_0 : FVec F S_ .f32 := constant S_ .f32 0x7F800000#32
  let main_v5 : FVec F S256x256x16x16 .f32 := broadcastInDim S256x256x16x16 ![] bcast_S_S256x256x16x16 main_cst_0
  let main_v6 : IVec S256x256x16x16 1 := cmpf .olt main_v4 main_v5
  let main_c_1 : IVec S_ 1 := constantI S_ 1 1#1
  let main_v7 : IVec S_ 1 := (fun x v => Host.reduce IntOp.andi x v reducesTo_S256x256x16x16_S_d0_1_2_3 h_S_) main_v6 main_c_1
  let main_v8 : IVec S_ 1 := andi main_v3 main_v7
  main_v8
-- ==== Kernel.lean ====
abbrev S256x256x16x16 : Shape := ⟨4, ![256, 256, 16, 16]⟩
abbrev S256x65536 : Shape := ⟨2, ![256, 65536]⟩
abbrev S2x512x512 : Shape := ⟨3, ![2, 512, 512]⟩
abbrev S2x512x128 : Shape := ⟨3, ![2, 512, 128]⟩
abbrev S256x4096 : Shape := ⟨2, ![256, 4096]⟩
abbrev S1x512x512 : Shape := ⟨3, ![1, 512, 512]⟩
abbrev S1x512x128 : Shape := ⟨3, ![1, 512, 128]⟩
abbrev S512x512 : Shape := ⟨2, ![512, 512]⟩
abbrev S512x128 : Shape := ⟨2, ![512, 128]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S_ : Shape := ⟨0, ![]⟩
abbrev S512x1 : Shape := ⟨2, ![512, 1]⟩
abbrev S512 : Shape := ⟨1, ![512]⟩
abbrev S1x512 : Shape := ⟨2, ![1, 512]⟩
abbrev S1x256x1x256 : Shape := ⟨4, ![1, 256, 1, 256]⟩
abbrev S2x256x2x256 : Shape := ⟨4, ![2, 256, 2, 256]⟩

abbrev nBuf : Space → Nat
  | .hbm => 82
  | .vmem => 8
  | .smem => 0
  | _ => 0

abbrev bufTy : (tb : Table) → Fin (tcTables nBuf tb) → BufTy
  | .hbm, ⟨0, _⟩ => ⟨S256x256x16x16, .f32⟩
  | .hbm, ⟨1, _⟩ => ⟨S256x256x16x16, .f32⟩
  | .hbm, ⟨2, _⟩ => ⟨S256x65536, .f32⟩
  | .hbm, ⟨3, _⟩ => ⟨S256x65536, .f32⟩
  | .hbm, ⟨4, _⟩ => ⟨S2x512x512, .f32⟩
  | .hbm, ⟨5, _⟩ => ⟨S2x512x128, .f32⟩
  | .hbm, ⟨6, _⟩ => ⟨S_, .f32⟩
  | .hbm, ⟨7, _⟩ => ⟨S512x512, .f32⟩
  | .hbm, ⟨8, _⟩ => ⟨S_, .f32⟩
  | .hbm, ⟨9, _⟩ => ⟨S512x128, .f32⟩
  | .hbm, ⟨10, _⟩ => ⟨S512x1, .f32⟩
  | .hbm, ⟨11, _⟩ => ⟨S512, .f32⟩
  | .hbm, ⟨12, _⟩ => ⟨S512x1, .f32⟩
  | .hbm, ⟨13, _⟩ => ⟨S1x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512, .f32⟩
  | .hbm, ⟨27, _⟩ => ⟨S512x1, .f32⟩
  | .hbm, ⟨28, _⟩ => ⟨S512x512, .f32⟩
  | .hbm, ⟨29, _⟩ => ⟨S512x512, .f32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S256x256, .i1⟩
  | .hbm, ⟨36, _⟩ => ⟨S256x256, .f32⟩
  | .hbm, ⟨37, _⟩ => ⟨S1x256x1x256, .f32⟩
  | .hbm, ⟨38, _⟩ => ⟨S2x256x2x256, .f32⟩
  | .hbm, ⟨39, _⟩ => ⟨S512x512, .f32⟩
  | .hbm, ⟨40, _⟩ => ⟨S512x512, .i32⟩
  | .hbm, ⟨41, _⟩ => ⟨S512x512, .i32⟩
  | .hbm, ⟨42, _⟩ => ⟨S_, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512, .f32⟩
  | .hbm, ⟨55, _⟩ => ⟨S512x1, .f32⟩
  | .hbm, ⟨56, _⟩ => ⟨S_, .f32⟩
  | .hbm, ⟨57, _⟩ => ⟨S512x1, .f32⟩
  | .hbm, ⟨58, _⟩ => ⟨S512x1, .f32⟩
  | .hbm, ⟨59, _⟩ => ⟨S512x1, .f32⟩
  | .hbm, ⟨60, _⟩ => ⟨S512x512, .f32⟩
  | .hbm, ⟨61, _⟩ => ⟨S512x512, .f32⟩
  | .hbm, ⟨62, _⟩ => ⟨S_, .f32⟩
  | .hbm, ⟨63, _⟩ => ⟨S512, .f32⟩
  | .hbm, ⟨64, _⟩ => ⟨S_, .f32⟩
  | .hbm, ⟨65, _⟩ => ⟨S512, .f32⟩
  | .hbm, ⟨66, _⟩ => ⟨S512, .i1⟩
  | .hbm, ⟨67, _⟩ => ⟨S_, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512x512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S_, .f32⟩
  | .hbm, ⟨76, _⟩ => ⟨S512, .f32⟩
  | .hbm, ⟨77, _⟩ => ⟨S512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x512x512, .f32⟩
  | .local _ .vmem, ⟨5, _⟩ => ⟨S1x512x512, .f32⟩
  | .local _ .vmem, ⟨6, _⟩ => ⟨S1x512x128, .f32⟩
  | .local _ .vmem, ⟨7, _⟩ => ⟨S1x512x128, .f32⟩
  | _, _ => ⟨S256x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S256x256x16x16_S256x65536 : S256x256x16x16.ShapeCasts S256x65536
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  inb_S1x512x128_S1x256x128_0_0_0 : ∀ a, (![0, 0, 0] : Fin 3 → Nat) a + S1x256x128.size a ≤ S1x512x128.size a
  h_S1x256x128 : 0 < S1x256x128.numel
  shapeCasts_S1x256x128_S256x128 : S1x256x128.ShapeCasts S256x128
  shapeCasts_S256x1_S256x1 : S256x1.ShapeCasts S256x1
  broadcasts_S256x1_S256x128 : S256x1.Broadcasts S256x128
  shapeCasts_S256x128_S1x256x128 : S256x128.ShapeCasts S1x256x128
  inb_S1x512x128_S1x256x128_0_256_0 : ∀ a, (![0, 256, 0] : Fin 3 → Nat) a + S1x256x128.size a ≤ S1x512x128.size a
  bitsLt_bf16_f32 : FTy.bits .bf16 < FTy.bits .f32
  inb_S1x512x512_S1x256x256_0_0_0 : ∀ a, (![0, 0, 0] : Fin 3 → Nat) a + S1x256x256.size a ≤ S1x512x512.size a
  h_S1x256x256 : 0 < S1x256x256.numel
  shapeCasts_S1x256x256_S256x256 : S1x256x256.ShapeCasts S256x256
  shapeCasts_S256x256_S1x256x256 : S256x256.ShapeCasts S1x256x256
  inb_S1x512x512_S1x256x256_0_0_256 : ∀ a, (![0, 0, 256] : Fin 3 → Nat) a + S1x256x256.size a ≤ S1x512x512.size a
  inb_S1x512x512_S1x256x256_0_256_0 : ∀ a, (![0, 256, 0] : Fin 3 → Nat) a + S1x256x256.size a ≤ S1x512x512.size a
  inb_S1x512x512_S1x256x256_0_256_256 : ∀ a, (![0, 256, 256] : Fin 3 → Nat) a + S1x256x256.size a ≤ S1x512x512.size a
  reducesTo_S2x512x512_S512x512_d0 : S2x512x512.ReducesTo [0] S512x512
  h_S_ : 0 < S_.numel
  reducesTo_S2x512x128_S512x128_d0 : S2x512x128.ReducesTo [0] S512x128
  slices_S512x128_S512x1_0_0 : S512x128.Slices ![0, 0] S512x1
  shapeCasts_S512x1_S512 : S512x1.ShapeCasts S512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  bcast_S_S256x256 : S_.BroadcastsInDim S256x256 (![] : Fin 0 → Fin S256x256.rank)
  shapeCasts_S256x256_S1x256x1x256 : S256x256.ShapeCasts S1x256x1x256
  bcast_S1x256x1x256_S2x256x2x256_0_1_2_3 : S1x256x1x256.BroadcastsInDim S2x256x2x256 (![0, 1, 2, 3] : Fin 4 → Fin S2x256x2x256.rank)
  shapeCasts_S2x256x2x256_S512x512 : S2x256x2x256.ShapeCasts S512x512
  bcast_S_S512x1 : S_.BroadcastsInDim S512x1 (![] : Fin 0 → Fin S512x1.rank)
  bcast_S_S512 : S_.BroadcastsInDim S512 (![] : Fin 0 → Fin S512.rank)
  reducesTo_S512_S_d0 : S512.ReducesTo [0] S_
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x65536.size a
  hwx0_0 : ∀ i : grid0.Coords, EltTy.bits .f32 = 32 ∨ (Rect.block (s := S256x65536) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x65536.size a
  hwx0_1 : ∀ i : grid0.Coords, EltTy.bits .f32 = 32 ∨ (Rect.block (s := S256x65536) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S2x512x512.size a
  hwx0_2 : ∀ i : grid0.Coords, EltTy.bits .f32 = 32 ∨ (Rect.block (s := S2x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S2x512x128.size a
  hwx0_3 : ∀ i : grid0.Coords, EltTy.bits .f32 = 32 ∨ (Rect.block (s := S2x512x128) S1x512x128.size (cc0_transform_3 i) (hinb0_3 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x256x16x16 : Shape := ⟨4, ![256, 256, 16, 16]⟩
abbrev S256x65536 : Shape := ⟨2, ![256, 65536]⟩
abbrev S512x65536 : Shape := ⟨2, ![512, 65536]⟩
abbrev S_ : Shape := ⟨0, ![]⟩
abbrev S512 : Shape := ⟨1, ![512]⟩
abbrev S65536x512 : Shape := ⟨2, ![65536, 512]⟩
abbrev S512x512 : Shape := ⟨2, ![512, 512]⟩
abbrev S512x1 : Shape := ⟨2, ![512, 1]⟩
abbrev S1x512 : Shape := ⟨2, ![1, 512]⟩
abbrev S256x256 : Shape := ⟨2, ![256, 256]⟩
abbrev S1x256x1x256 : Shape := ⟨4, ![1, 256, 1, 256]⟩
abbrev S2x256x2x256 : Shape := ⟨4, ![2, 256, 2, 256]⟩

abbrev nBuf : Space → Nat
  | .hbm => 80
  | .vmem => 0
  | .smem => 0
  | _ => 0

abbrev bufTy : (tb : Table) → Fin (tcTables nBuf tb) → BufTy
  | .hbm, ⟨0, _⟩ => ⟨S256x256x16x16, .f32⟩
  | .hbm, ⟨1, _⟩ => ⟨S256x256x16x16, .f32⟩
  | .hbm, ⟨2, _⟩ => ⟨S256x65536, .f32⟩
  | .hbm, ⟨3, _⟩ => ⟨S256x65536, .f32⟩
  | .hbm, ⟨4, _⟩ => ⟨S512x65536, .f32⟩
  | .hbm, ⟨5, _⟩ => ⟨S512x65536, .f32⟩
  | .hbm, ⟨6, _⟩ => ⟨S_, .f32⟩
  | .hbm, ⟨7, _⟩ => ⟨S512, .f32⟩
  | .hbm, ⟨8, _⟩ => ⟨S65536x512, .f32⟩
  | .hbm, ⟨9, _⟩ => ⟨S512x512, .f32⟩
  | .hbm, ⟨10, _⟩ => ⟨S512x1, .f32⟩
  | .hbm, ⟨11, _⟩ => ⟨S1x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S_, .f32⟩
  | .hbm, ⟨24, _⟩ => ⟨S512, .f32⟩
  | .hbm, ⟨25, _⟩ => ⟨S512x1, .f32⟩
  | .hbm, ⟨26, _⟩ => ⟨S512x512, .f32⟩
  | .hbm, ⟨27, _⟩ => ⟨S512x512, .f32⟩
  | .hbm, ⟨28, _⟩ => ⟨S256x256, .i32⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .f32⟩
  | .hbm, ⟨35, _⟩ => ⟨S1x256x1x256, .f32⟩
  | .hbm, ⟨36, _⟩ => ⟨S2x256x2x256, .f32⟩
  | .hbm, ⟨37, _⟩ => ⟨S512x512, .f32⟩
  | .hbm, ⟨38, _⟩ => ⟨S512x512, .i32⟩
  | .hbm, ⟨39, _⟩ => ⟨S512x512, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .f32⟩
  | .hbm, ⟨45, _⟩ => ⟨S_, .f32⟩
  | .hbm, ⟨46, _⟩ => ⟨S512x512, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S_, .f32⟩
  | .hbm, ⟨52, _⟩ => ⟨S512, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S512x1, .f32⟩
  | .hbm, ⟨58, _⟩ => ⟨S512x512, .f32⟩
  | .hbm, ⟨59, _⟩ => ⟨S512x512, .f32⟩
  | .hbm, ⟨60, _⟩ => ⟨S_, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .i1⟩
  | .hbm, ⟨65, _⟩ => ⟨S_, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S512x512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S256x256x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_call0_v0 : Ref sig .tc := ⟨.hbm, 66, rfl⟩
abbrev main_call0_v1 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩

abbrev nD : Nat := 1
abbrev τ : Topo := Topo.v7x

variable {F : FTy → Type} [FloatOps F]

class Facts₀ : Prop where
  shapeCasts_S256x256x16x16_S256x65536 : S256x256x16x16.ShapeCasts S256x65536
  concatenates_S256x65536_S256x65536_S512x65536_d0 : Shape.Concatenates [S256x65536, S256x65536] S512x65536 0
  reducesTo_S512x65536_S512_d1 : S512x65536.ReducesTo [1] S512
  h_S_ : 0 < S_.numel
  transposes_S512x65536_S65536x512_1_0 : S512x65536.Transposes [1, 0] S65536x512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  bcast_S_S256x256 : S_.BroadcastsInDim S256x256 (![] : Fin 0 → Fin S256x256.rank)
  shapeCasts_S256x256_S1x256x1x256 : S256x256.ShapeCasts S1x256x1x256
  bcast_S1x256x1x256_S2x256x2x256_0_1_2_3 : S1x256x1x256.BroadcastsInDim S2x256x2x256 (![0, 1, 2, 3] : Fin 4 → Fin S2x256x2x256.rank)
  shapeCasts_S2x256x2x256_S512x512 : S2x256x2x256.ShapeCasts S512x512
  bcast_S_S512x1 : S_.BroadcastsInDim S512x1 (![] : Fin 0 → Fin S512x1.rank)
  bcast_S_S512 : S_.BroadcastsInDim S512 (![] : Fin 0 → Fin S512.rank)
  reducesTo_S512_S_d0 : S512.ReducesTo [0] S_
  dot_S512x65536_S65536x512_S512x512_1_0_0_1_n_n_wf : DotDims.WF S512x65536 S65536x512 S512x512 [1] [0] [0] [1] [] []

variable [Facts₀]

def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf

class Facts : Prop extends Facts₀ where

variable [Facts]
-- ==== Proof.K.Base.lean ====
/-
  The launch side of the kernel's frame: @main is two reshapes, the one pallas_call, then three stretches of host
  operations (62, 3 and 11 of them). Here: what the region finds in each buffer (`V`: the launch contents after the
  two reshapes), that the later operations touch only unscoped TensorCore buffers, allocate nothing and write none of
  the region's four arrays, that neither argument array is ever written, each window's block at a grid point, the
  body's one branch condition in closed form (`program_id(1) == 0`: every eighth point), and the frame claim's post
  from a frame run's.
-/
import proofs.«400202_j48155173323219_3_alg».proof.Proof.Gen.Kernel.Launch
import proofs.«400202_j48155173323219_3_alg».proof.Proof.Gen.Kernel.Skeleton
import proofs.«400202_j48155173323219_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) := [hostOps1, hostOps1_1, hostOps1_2]

/-- Core `c`'s buffer contents when the region is entered: the launch contents after the two reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is: the reshapes, the region, the later host operations — so its run reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No operation of a stretch writes one of the region's four arrays: each writes its own result buffer only. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- A fact of every operation of every stretch, from the fact stretch by stretch. -/
theorem tailOps_forall {Q : HloOp τ sig (Elt F) → Prop} (h1 : (hostOps1 : List (HloOp τ sig (Elt F))).Forall Q)
    (h2 : (hostOps1_1 : List (HloOp τ sig (Elt F))).Forall Q) (h3 : (hostOps1_2 : List (HloOp τ sig (Elt F))).Forall Q) :
    ∀ ops ∈ (tailOps : List (List (HloOp τ sig (Elt F)))), ∀ op ∈ ops, Q op := by
  intro ops hops op hop
  simp only [tailOps, List.mem_cons, List.mem_nil_iff, or_false] at hops
  rcases hops with rfl | rfl | rfl
  · exact (List.forall_iff_forall_mem.mp h1) op hop
  · exact (List.forall_iff_forall_mem.mp h2) op hop
  · exact (List.forall_iff_forall_mem.mp h3) op hop

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tailOps_forall (Q := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
theorem sfx_fresh : ∀ ops ∈ (tailOps : List (List (HloOp τ sig (Elt F)))), ∀ op ∈ ops, op.fresh = ∅ :=
  tailOps_forall hostOps1_fresh hostOps1_1_fresh hostOps1_2_fresh
theorem sfx_keeps : ∀ ops ∈ (tailOps : List (List (HloOp τ sig (Elt F)))), ∀ op ∈ ops,
    ∀ w, Proc.devRef .tc (Pipeline.arrRef spec0 w) ∉ op.writes :=
  tailOps_forall hostOps1_keeps hostOps1_1_keeps hostOps1_2_keeps

/-! ## The argument arrays are never written -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 4000000 in
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point (it is fetched at every point and the body
    leaves it in place). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- Neither argument array is one of the region's arrays or a scoped buffer, so a frame run leaves each at what the later
    operations leave it: its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch condition -/

/-- The body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds at every eighth point: the first point of each half. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of each output window, through which its contents are stated. -/
abbrev VO0_2 : View sig .tc .vmem S1x512x512 .f32 := (Memref.whole cc0_stg2_0 : Memref sig .tc .vmem S1x512x512 .f32).view
abbrev VO0_3 : View sig .tc .vmem S1x512x128 .f32 := (Memref.whole cc0_stg3_0 : Memref sig .tc .vmem S1x512x128 .f32).view
/-- Each window's current staging memref at point `t`, as the pipeline passes it, and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .f32 := win0_3.stage (cfg0.slots t 3)
abbrev hs0_3 (t : Fin cfg0.N) : (ms0_3 t).IsWhole := hstage0_3 ((cfg0.slots t 3).cast nbuf0_3)

end Cert.Kernel.Fr

end
-- ==== Proof.K.RunA.lean ====
/-
  The kernel body run once at a point where the second grid coordinate is zero (the first point of a half): it first
  stores zeros over both output blocks, then adds this point's contributions into them. What each output buffer ends
  with is found by the run, as the list of pieces its stores wrote.
-/
import proofs.«400202_j48155173323219_3_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the two inputs' at contents `x0`, `x1`, the two outputs' at anything — the body runs to a
    continuation that gets the inputs' back as they were and each output's buffer with the found pieces written. -/
noncomputable def kernelRun0_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 : Vec F S256x4096 .f32) (x1 : Vec F S256x4096 .f32) :
    Σ' (L2 : List (View.Piece (Elt F) S1x512x512 .f32)), { L3 : List (View.Piece (Elt F) S1x512x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_gram_kernel i arg2 harg2 arg3 harg3 arg4 harg4 arg5 harg5) K } := by
  refine ⟨?_, ?_, fun E K => ?run⟩
  case run =>
    simp only [cc0__fused_gram_kernel_eq_skeleton]; unfold cc0__fused_gram_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Fr

end
-- ==== Proof.K.RunB.lean ====
/-
  The kernel body run once at a point where the second grid coordinate is not zero: it adds this point's contributions
  into both output blocks, which it finds at the running contents the point before left. What each output buffer ends
  with is found by the run, as the list of pieces its stores wrote.
-/
import proofs.«400202_j48155173323219_3_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the two inputs' at contents `x0`, `x1`, the two outputs' at their running contents
    `xo2`, `xo3` — the body runs to a continuation that gets the inputs' back as they were and each output's buffer with
    the found pieces written. -/
noncomputable def kernelRun0_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 : Vec F S256x4096 .f32) (x1 : Vec F S256x4096 .f32) (xo2 : Vec F S1x512x512 .f32) (xo3 : Vec F S1x512x128 .f32) :
    Σ' (L2 : List (View.Piece (Elt F) S1x512x512 .f32)), { L3 : List (View.Piece (Elt F) S1x512x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_gram_kernel i arg2 harg2 arg3 harg3 arg4 harg4 arg5 harg5) K } := by
  refine ⟨?_, ?_, fun E K => ?run⟩
  case run =>
    simp only [cc0__fused_gram_kernel_eq_skeleton]; unfold cc0__fused_gram_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Fr

end
-- ==== Proof.K.Frame.lean ====
/-
  The kernel's frame. The body's one branch splits the grid's sixteen points into two cases: the first point of each
  half (the second coordinate is zero), where both output blocks are reset and then added to, and the seven later
  points of the half, where they are added to over what the point before left. Per case the body's run found the pieces
  each output buffer ends with; read back, they say what the buffer holds (`out0_A_2` …). `outsAt0` follows the two
  output buffers point by point, by recursion on the point. With that as proof data the pipeline's launch theorem gives
  the run of @main: every array of the region at what its write-backs leave, every other buffer at what the later host
  operations leave. Neither argument array is written anywhere: the frame.
-/
import proofs.«400202_j48155173323219_3_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output's staging buffer -/

theorem cover0_A_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec F S256x4096 .f32) (y : S1x512x512.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x512x512.size (by sl_kernel_rfl) y
theorem cover0_A_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec F S256x4096 .f32) (y : S1x512x128.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x512x128.size (by sl_kernel_rfl) y
theorem cover0_B_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec F S256x4096 .f32) (xo2 : Vec F S1x512x512 .f32) (xo3 : Vec F S1x512x128 .f32) (y : S1x512x512.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x256x256.size (by sl_kernel_rfl) y
theorem cover0_B_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec F S256x4096 .f32) (xo2 : Vec F S1x512x512 .f32) (xo3 : Vec F S1x512x128 .f32) (y : S1x512x128.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x256x128.size (by sl_kernel_rfl) y

/-- The partial Gram block after a resetting point: its pieces read back. -/
def out0_A_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec F S256x4096 .f32) : Vec F S1x512x512 .f32 :=
  VO0_2.read (Elt F) (VO0_2.writes (Elt F) VO0_2.junk (kernelRun0_A c i arg2 harg2 arg3 harg3 arg4 harg4 arg5 harg5 hc0 x0 x1).1)
/-- The partial squared-norm block after a resetting point. -/
def out0_A_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec F S256x4096 .f32) : Vec F S1x512x128 .f32 :=
  VO0_3.read (Elt F) (VO0_3.writes (Elt F) VO0_3.junk (kernelRun0_A c i arg2 harg2 arg3 harg3 arg4 harg4 arg5 harg5 hc0 x0 x1).2.1)
/-- The partial Gram block after an accumulating point, over the running contents `xo2`. -/
def out0_B_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec F S256x4096 .f32) (xo2 : Vec F S1x512x512 .f32) (xo3 : Vec F S1x512x128 .f32) : Vec F S1x512x512 .f32 :=
  VO0_2.read (Elt F) (VO0_2.writes (Elt F) VO0_2.junk (kernelRun0_B c i arg2 harg2 arg3 harg3 arg4 harg4 arg5 harg5 hc0 x0 x1 xo2 xo3).1)
/-- The partial squared-norm block after an accumulating point, over the running contents `xo3`. -/
def out0_B_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec F S256x4096 .f32) (xo2 : Vec F S1x512x512 .f32) (xo3 : Vec F S1x512x128 .f32) : Vec F S1x512x128 .f32 :=
  VO0_3.read (Elt F) (VO0_3.writes (Elt F) VO0_3.junk (kernelRun0_B c i arg2 harg2 arg3 harg3 arg4 harg4 arg5 harg5 hc0 x0 x1 xo2 xo3).2.1)

/-! ## The two output buffers, point by point -/

/-- What the two outputs' staging buffers hold after the body at position `n`: at a resetting point what that case
    leaves; at an accumulating point what that case leaves over what the point before left. -/
def outsAt0 (c : Dev nD) : (n : ℕ) → n < cfg0.N → Vec F S1x512x512 .f32 × Vec F S1x512x128 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2)

theorem outsAt0_A (c : Dev nD) (t : Fin cfg0.N) (h0 : t.val % 8 = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the outputs' at
    `outsAt0`; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an accumulating point an output's current staging buffer holds what the body left at the point before: the point
    is not the first, and the buffer was not written back in between (write-backs come after the last point of a half). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in; at an
    accumulating point the outputs' memrefs hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the region ends
    at what its write-backs leave and every other unscoped buffer at what the later host operations leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.KI.Base.lean ====
/-
  The launch side of the kernel's frame: @main is two reshapes, the one pallas_call, then three stretches of host
  operations (62, 3 and 11 of them). Here: what the region finds in each buffer (`V`: the launch contents after the
  two reshapes), that the later operations touch only unscoped TensorCore buffers, allocate nothing and write none of
  the region's four arrays, that neither argument array is ever written, each window's block at a grid point, the
  body's one branch condition in closed form (`program_id(1) == 0`: every eighth point), and the frame claim's post
  from a frame run's.
-/
import proofs.«400202_j48155173323219_3_alg».proof.Proof.Gen.KernelIdeal.Launch
import proofs.«400202_j48155173323219_3_alg».proof.Proof.Gen.KernelIdeal.Skeleton
import proofs.«400202_j48155173323219_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) := [hostOps1, hostOps1_1, hostOps1_2]

/-- Core `c`'s buffer contents when the region is entered: the launch contents after the two reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is: the reshapes, the region, the later host operations — so its run reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No operation of a stretch writes one of the region's four arrays: each writes its own result buffer only. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- A fact of every operation of every stretch, from the fact stretch by stretch. -/
theorem tailOps_forall {Q : HloOp τ sig (Elt F) → Prop} (h1 : (hostOps1 : List (HloOp τ sig (Elt F))).Forall Q)
    (h2 : (hostOps1_1 : List (HloOp τ sig (Elt F))).Forall Q) (h3 : (hostOps1_2 : List (HloOp τ sig (Elt F))).Forall Q) :
    ∀ ops ∈ (tailOps : List (List (HloOp τ sig (Elt F)))), ∀ op ∈ ops, Q op := by
  intro ops hops op hop
  simp only [tailOps, List.mem_cons, List.mem_nil_iff, or_false] at hops
  rcases hops with rfl | rfl | rfl
  · exact (List.forall_iff_forall_mem.mp h1) op hop
  · exact (List.forall_iff_forall_mem.mp h2) op hop
  · exact (List.forall_iff_forall_mem.mp h3) op hop

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tailOps_forall (Q := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
theorem sfx_fresh : ∀ ops ∈ (tailOps : List (List (HloOp τ sig (Elt F)))), ∀ op ∈ ops, op.fresh = ∅ :=
  tailOps_forall hostOps1_fresh hostOps1_1_fresh hostOps1_2_fresh
theorem sfx_keeps : ∀ ops ∈ (tailOps : List (List (HloOp τ sig (Elt F)))), ∀ op ∈ ops,
    ∀ w, Proc.devRef .tc (Pipeline.arrRef spec0 w) ∉ op.writes :=
  tailOps_forall hostOps1_keeps hostOps1_1_keeps hostOps1_2_keeps

/-! ## The argument arrays are never written -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 4000000 in
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point (it is fetched at every point and the body
    leaves it in place). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- Neither argument array is one of the region's arrays or a scoped buffer, so a frame run leaves each at what the later
    operations leave it: its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch condition -/

/-- The body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds at every eighth point: the first point of each half. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of each output window, through which its contents are stated. -/
abbrev VO0_2 : View sig .tc .vmem S1x512x512 .f32 := (Memref.whole cc0_stg2_0 : Memref sig .tc .vmem S1x512x512 .f32).view
abbrev VO0_3 : View sig .tc .vmem S1x512x128 .f32 := (Memref.whole cc0_stg3_0 : Memref sig .tc .vmem S1x512x128 .f32).view
/-- Each window's current staging memref at point `t`, as the pipeline passes it, and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .f32 := win0_3.stage (cfg0.slots t 3)
abbrev hs0_3 (t : Fin cfg0.N) : (ms0_3 t).IsWhole := hstage0_3 ((cfg0.slots t 3).cast nbuf0_3)

end Cert.KernelIdeal.Fr

end
-- ==== Proof.KI.RunA.lean ====
/-
  The kernel body run once at a point where the second grid coordinate is zero (the first point of a half): it first
  stores zeros over both output blocks, then adds this point's contributions into them. What each output buffer ends
  with is found by the run, as the list of pieces its stores wrote.
-/
import proofs.«400202_j48155173323219_3_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the two inputs' at contents `x0`, `x1`, the two outputs' at anything — the body runs to a
    continuation that gets the inputs' back as they were and each output's buffer with the found pieces written. -/
noncomputable def kernelRun0_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 : Vec F S256x4096 .f32) (x1 : Vec F S256x4096 .f32) :
    Σ' (L2 : List (View.Piece (Elt F) S1x512x512 .f32)), { L3 : List (View.Piece (Elt F) S1x512x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_gram_kernel i arg2 harg2 arg3 harg3 arg4 harg4 arg5 harg5) K } := by
  refine ⟨?_, ?_, fun E K => ?run⟩
  case run =>
    simp only [cc0__fused_gram_kernel_eq_skeleton]; unfold cc0__fused_gram_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Fr

end
-- ==== Proof.KI.RunB.lean ====
/-
  The kernel body run once at a point where the second grid coordinate is not zero: it adds this point's contributions
  into both output blocks, which it finds at the running contents the point before left. What each output buffer ends
  with is found by the run, as the list of pieces its stores wrote.
-/
import proofs.«400202_j48155173323219_3_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the two inputs' at contents `x0`, `x1`, the two outputs' at their running contents
    `xo2`, `xo3` — the body runs to a continuation that gets the inputs' back as they were and each output's buffer with
    the found pieces written. -/
noncomputable def kernelRun0_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 : Vec F S256x4096 .f32) (x1 : Vec F S256x4096 .f32) (xo2 : Vec F S1x512x512 .f32) (xo3 : Vec F S1x512x128 .f32) :
    Σ' (L2 : List (View.Piece (Elt F) S1x512x512 .f32)), { L3 : List (View.Piece (Elt F) S1x512x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_gram_kernel i arg2 harg2 arg3 harg3 arg4 harg4 arg5 harg5) K } := by
  refine ⟨?_, ?_, fun E K => ?run⟩
  case run =>
    simp only [cc0__fused_gram_kernel_eq_skeleton]; unfold cc0__fused_gram_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Fr

end
-- ==== Proof.KI.Frame.lean ====
/-
  The kernel's frame. The body's one branch splits the grid's sixteen points into two cases: the first point of each
  half (the second coordinate is zero), where both output blocks are reset and then added to, and the seven later
  points of the half, where they are added to over what the point before left. Per case the body's run found the pieces
  each output buffer ends with; read back, they say what the buffer holds (`out0_A_2` …). `outsAt0` follows the two
  output buffers point by point, by recursion on the point. With that as proof data the pipeline's launch theorem gives
  the run of @main: every array of the region at what its write-backs leave, every other buffer at what the later host
  operations leave. Neither argument array is written anywhere: the frame.
-/
import proofs.«400202_j48155173323219_3_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output's staging buffer -/

theorem cover0_A_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec F S256x4096 .f32) (y : S1x512x512.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x512x512.size (by sl_kernel_rfl) y
theorem cover0_A_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec F S256x4096 .f32) (y : S1x512x128.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x512x128.size (by sl_kernel_rfl) y
theorem cover0_B_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec F S256x4096 .f32) (xo2 : Vec F S1x512x512 .f32) (xo3 : Vec F S1x512x128 .f32) (y : S1x512x512.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x256x256.size (by sl_kernel_rfl) y
theorem cover0_B_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec F S256x4096 .f32) (xo2 : Vec F S1x512x512 .f32) (xo3 : Vec F S1x512x128 .f32) (y : S1x512x128.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x256x128.size (by sl_kernel_rfl) y

/-- The partial Gram block after a resetting point: its pieces read back. -/
def out0_A_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec F S256x4096 .f32) : Vec F S1x512x512 .f32 :=
  VO0_2.read (Elt F) (VO0_2.writes (Elt F) VO0_2.junk (kernelRun0_A c i arg2 harg2 arg3 harg3 arg4 harg4 arg5 harg5 hc0 x0 x1).1)
/-- The partial squared-norm block after a resetting point. -/
def out0_A_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec F S256x4096 .f32) : Vec F S1x512x128 .f32 :=
  VO0_3.read (Elt F) (VO0_3.writes (Elt F) VO0_3.junk (kernelRun0_A c i arg2 harg2 arg3 harg3 arg4 harg4 arg5 harg5 hc0 x0 x1).2.1)
/-- The partial Gram block after an accumulating point, over the running contents `xo2`. -/
def out0_B_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec F S256x4096 .f32) (xo2 : Vec F S1x512x512 .f32) (xo3 : Vec F S1x512x128 .f32) : Vec F S1x512x512 .f32 :=
  VO0_2.read (Elt F) (VO0_2.writes (Elt F) VO0_2.junk (kernelRun0_B c i arg2 harg2 arg3 harg3 arg4 harg4 arg5 harg5 hc0 x0 x1 xo2 xo3).1)
/-- The partial squared-norm block after an accumulating point, over the running contents `xo3`. -/
def out0_B_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec F S256x4096 .f32) (xo2 : Vec F S1x512x512 .f32) (xo3 : Vec F S1x512x128 .f32) : Vec F S1x512x128 .f32 :=
  VO0_3.read (Elt F) (VO0_3.writes (Elt F) VO0_3.junk (kernelRun0_B c i arg2 harg2 arg3 harg3 arg4 harg4 arg5 harg5 hc0 x0 x1 xo2 xo3).2.1)

/-! ## The two output buffers, point by point -/

/-- What the two outputs' staging buffers hold after the body at position `n`: at a resetting point what that case
    leaves; at an accumulating point what that case leaves over what the point before left. -/
def outsAt0 (c : Dev nD) : (n : ℕ) → n < cfg0.N → Vec F S1x512x512 .f32 × Vec F S1x512x128 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2)

theorem outsAt0_A (c : Dev nD) (t : Fin cfg0.N) (h0 : t.val % 8 = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the outputs' at
    `outsAt0`; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an accumulating point an output's current staging buffer holds what the body left at the point before: the point
    is not the first, and the buffer was not written back in between (write-backs come after the last point of a half). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in; at an
    accumulating point the outputs' memrefs hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the region ends
    at what its write-backs leave and every other unscoped buffer at what the later host operations leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.Spec.lean ====
/-
  The vocabulary both sides of the comparison are stated in.

  Both programs compute a contrastive loss from two quantities of the 512 stacked rows (the 256 rows of the first
  argument, then the 256 rows of the second, each row of length 65536): the squared norm of every row, `sq`, and the
  Gram matrix of the rows, `gram`. Everything after those two — the pairwise distances
  `sq i + sq j - 2 * gram i j`, the logits, their row maxima, the masked exponentials, the logarithm of their row sums,
  the mean over positive pairs, the final mean — is the SAME sequence of host operations in both programs, on the same
  literals. It is carried here as one function `tail` of `sq` and `gram`, never opened: the two programs differ only
  in how they produce `sq` and `gram`.
-/
import proofs.«400202_j48155173323219_3_alg».proof.KernelIdeal

noncomputable section

namespace Cert.Spec

open Idealize.ShloMosaic Cert.KernelIdeal Cert.KernelIdeal.Facts₀

variable {F : FTy → Type} [FloatOps F] [Cert.KernelIdeal.Facts]

/-- The positive-pair mask before the diagonal is removed: the 256 x 256 identity tiled 2 x 2. -/
def tiledEye : (⟨S512x512, .f32⟩ : BufTy).Contents (Elt F) :=
  have v22 : (⟨S256x256, .i32⟩ : BufTy).Contents (Elt F) := iotaInDim S256x256 32 0
  have v23 : (⟨S256x256, .i32⟩ : BufTy).Contents (Elt F) := iotaInDim S256x256 32 1
  have c : (⟨S_, .i32⟩ : BufTy).Contents (Elt F) := constantI S_ 32 0#32
  have v24 : (⟨S256x256, .i32⟩ : BufTy).Contents (Elt F) := broadcastInDim S256x256 ![] bcast_S_S256x256 c
  have v25 : (⟨S256x256, .i32⟩ : BufTy).Contents (Elt F) := addi v22 v24
  have v26 : (⟨S256x256, .i1⟩ : BufTy).Contents (Elt F) := cmpi .eq v25 v23
  have v27 : (⟨S256x256, .f32⟩ : BufTy).Contents (Elt F) := uitofp (F := F) .f32 v26
  have v28 : (⟨S1x256x1x256, .f32⟩ : BufTy).Contents (Elt F) := shapeCast S1x256x1x256 v27 shapeCasts_S256x256_S1x256x1x256
  have v29 : (⟨S2x256x2x256, .f32⟩ : BufTy).Contents (Elt F) := broadcastInDim S2x256x2x256 ![0, 1, 2, 3] bcast_S1x256x1x256_S2x256x2x256_0_1_2_3 v28
  shapeCast S512x512 v29 shapeCasts_S2x256x2x256_S512x512

/-- One minus the 512 x 512 identity: the mask that drops self-comparisons. -/
def offDiag : (⟨S512x512, .f32⟩ : BufTy).Contents (Elt F) :=
  have v31 : (⟨S512x512, .i32⟩ : BufTy).Contents (Elt F) := iotaInDim S512x512 32 0
  have v32 : (⟨S512x512, .i32⟩ : BufTy).Contents (Elt F) := iotaInDim S512x512 32 1
  have c4 : (⟨S_, .i32⟩ : BufTy).Contents (Elt F) := constantI S_ 32 0#32
  have v33 : (⟨S512x512, .i32⟩ : BufTy).Contents (Elt F) := broadcastInDim S512x512 ![] bcast_S_S512x512 c4
  have v34 : (⟨S512x512, .i32⟩ : BufTy).Contents (Elt F) := addi v31 v33
  have v35 : (⟨S512x512, .i1⟩ : BufTy).Contents (Elt F) := cmpi .eq v34 v32
  have v36 : (⟨S512x512, .f32⟩ : BufTy).Contents (Elt F) := uitofp (F := F) .f32 v35
  have cst5 : (⟨S_, .f32⟩ : BufTy).Contents (Elt F) := constant S_ .f32 0x3F800000#32
  have v37 : (⟨S512x512, .f32⟩ : BufTy).Contents (Elt F) := broadcastInDim S512x512 ![] bcast_S_S512x512 cst5
  subf v37 v36

/-- The loss from the rows' squared norms and their Gram matrix: the host operations both programs share, in order. -/
def tail (sq : (⟨S512, .f32⟩ : BufTy).Contents (Elt F)) (gram : (⟨S512x512, .f32⟩ : BufTy).Contents (Elt F)) : (⟨S_, .f32⟩ : BufTy).Contents (Elt F) :=
  have v7 : (⟨S512x1, .f32⟩ : BufTy).Contents (Elt F) := broadcastInDim S512x1 ![0] bcast_S512_S512x1_0 sq
  have v8 : (⟨S1x512, .f32⟩ : BufTy).Contents (Elt F) := broadcastInDim S1x512 ![1] bcast_S512_S1x512_1 sq
  have v9 : (⟨S512x512, .f32⟩ : BufTy).Contents (Elt F) := broadcastInDim S512x512 ![0, 1] bcast_S512x1_S512x512_0_1 v7
  have v10 : (⟨S512x512, .f32⟩ : BufTy).Contents (Elt F) := broadcastInDim S512x512 ![0, 1] bcast_S1x512_S512x512_0_1 v8
  have v11 : (⟨S512x512, .f32⟩ : BufTy).Contents (Elt F) := addf v9 v10
  have cst1 : (⟨S_, .f32⟩ : BufTy).Contents (Elt F) := constant S_ .f32 0x40000000#32
  have v12 : (⟨S512x512, .f32⟩ : BufTy).Contents (Elt F) := broadcastInDim S512x512 ![] bcast_S_S512x512 cst1
  have v13 : (⟨S512x512, .f32⟩ : BufTy).Contents (Elt F) := mulf v12 gram
  have v14 : (⟨S512x512, .f32⟩ : BufTy).Contents (Elt F) := subf v11 v13
  have v15 : (⟨S512x512, .f32⟩ : BufTy).Contents (Elt F) := Host.negf v14
  have cst2 : (⟨S_, .f32⟩ : BufTy).Contents (Elt F) := constant S_ .f32 0x3C23D70A#32
  have v16 : (⟨S512x512, .f32⟩ : BufTy).Contents (Elt F) := broadcastInDim S512x512 ![] bcast_S_S512x512 cst2
  have v17 : (⟨S512x512, .f32⟩ : BufTy).Contents (Elt F) := mulf v15 v16
  have cst3 : (⟨S_, .f32⟩ : BufTy).Contents (Elt F) := constant S_ .f32 0xFF800000#32
  have v18 : (⟨S512, .f32⟩ : BufTy).Contents (Elt F) := Host.reduce FloatOps.maximumf v17 cst3 reducesTo_S512x512_S512_d1 h_S_
  have v19 : (⟨S512x1, .f32⟩ : BufTy).Contents (Elt F) := broadcastInDim S512x1 ![0] bcast_S512_S512x1_0 v18
  have v20 : (⟨S512x512, .f32⟩ : BufTy).Contents (Elt F) := broadcastInDim S512x512 ![0, 1] bcast_S512x1_S512x512_0_1 v19
  have v21 : (⟨S512x512, .f32⟩ : BufTy).Contents (Elt F) := subf v17 v20
  have v38 : (⟨S512x512, .f32⟩ : BufTy).Contents (Elt F) := offDiag
  have v39 : (⟨S512x512, .f32⟩ : BufTy).Contents (Elt F) := mulf tiledEye v38
  have v40 : (⟨S512x512, .f32⟩ : BufTy).Contents (Elt F) := Host.exp v21
  have v41 : (⟨S512x512, .f32⟩ : BufTy).Contents (Elt F) := mulf v40 v38
  have cst6 : (⟨S_, .f32⟩ : BufTy).Contents (Elt F) := constant S_ .f32 0x00000000#32
  have v42 : (⟨S512, .f32⟩ : BufTy).Contents (Elt F) := Host.reduceAdd v41 cst6 reducesTo_S512x512_S512_d1 h_S_
  have v43 : (⟨S512x1, .f32⟩ : BufTy).Contents (Elt F) := broadcastInDim S512x1 ![0] bcast_S512_S512x1_0 v42
  have cst7 : (⟨S_, .f32⟩ : BufTy).Contents (Elt F) := constant S_ .f32 0x2EDBE6FF#32
  have v44 : (⟨S512x1, .f32⟩ : BufTy).Contents (Elt F) := broadcastInDim S512x1 ![] bcast_S_S512x1 cst7
  have v45 : (⟨S512x1, .f32⟩ : BufTy).Contents (Elt F) := addf v43 v44
  have v46 : (⟨S512x1, .f32⟩ : BufTy).Contents (Elt F) := Host.log v45
  have v47 : (⟨S512x512, .f32⟩ : BufTy).Contents (Elt F) := broadcastInDim S512x512 ![0, 1] bcast_S512x1_S512x512_0_1 v46
  have v48 : (⟨S512x512, .f32⟩ : BufTy).Contents (Elt F) := subf v21 v47
  have cst8 : (⟨S_, .f32⟩ : BufTy).Contents (Elt F) := constant S_ .f32 0x00000000#32
  have v49 : (⟨S512, .f32⟩ : BufTy).Contents (Elt F) := Host.reduceAdd v39 cst8 reducesTo_S512x512_S512_d1 h_S_
  have cst9 : (⟨S_, .f32⟩ : BufTy).Contents (Elt F) := constant S_ .f32 0x358637BD#32
  have v50 : (⟨S512, .f32⟩ : BufTy).Contents (Elt F) := broadcastInDim S512 ![] bcast_S_S512 cst9
  have v51 : (⟨S512, .i1⟩ : BufTy).Contents (Elt F) := cmpf (F := F) .olt v49 v50
  have cst10 : (⟨S_, .f32⟩ : BufTy).Contents (Elt F) := constant S_ .f32 0x3F800000#32
  have w1 : (⟨S512, .f32⟩ : BufTy).Contents (Elt F) := broadcastInDim S512 ![] bcast_S_S512 (id cst10)
  have v52 : (⟨S512, .f32⟩ : BufTy).Contents (Elt F) := select v51 w1 v49
  have v53 : (⟨S512x512, .f32⟩ : BufTy).Contents (Elt F) := mulf v39 v48
  have cst11 : (⟨S_, .f32⟩ : BufTy).Contents (Elt F) := constant S_ .f32 0x00000000#32
  have v54 : (⟨S512, .f32⟩ : BufTy).Contents (Elt F) := Host.reduceAdd v53 cst11 reducesTo_S512x512_S512_d1 h_S_
  have v55 : (⟨S512, .f32⟩ : BufTy).Contents (Elt F) := Host.divf v54 v52
  have cst12 : (⟨S_, .f32⟩ : BufTy).Contents (Elt F) := constant S_ .f32 0xBF800000#32
  have v56 : (⟨S512, .f32⟩ : BufTy).Contents (Elt F) := broadcastInDim S512 ![] bcast_S_S512 cst12
  have v57 : (⟨S512, .f32⟩ : BufTy).Contents (Elt F) := mulf v56 v55
  have cst13 : (⟨S_, .f32⟩ : BufTy).Contents (Elt F) := constant S_ .f32 0x00000000#32
  have v58 : (⟨S_, .f32⟩ : BufTy).Contents (Elt F) := Host.reduceAdd v57 cst13 reducesTo_S512_S_d0 h_S_
  have cst14 : (⟨S_, .f32⟩ : BufTy).Contents (Elt F) := constant S_ .f32 0x44000000#32
  Host.divf v58 cst14

/-- The kernel's Gram matrix from its two per-half partial Gram matrices: their sum over the half axis. -/
def gramOf (g : (⟨S2x512x512, .f32⟩ : BufTy).Contents (Elt F)) : (⟨S512x512, .f32⟩ : BufTy).Contents (Elt F) :=
  Host.reduceAdd g (constant S_ .f32 0x00000000#32) reducesTo_S2x512x512_S512x512_d0 h_S_

/-- The kernel's squared norms from its two per-half partial sums (each held on 128 equal lanes): their sum over the
    half axis, read at lane 0. -/
def sqOf (s : (⟨S2x512x128, .f32⟩ : BufTy).Contents (Elt F)) : (⟨S512, .f32⟩ : BufTy).Contents (Elt F) :=
  shapeCast S512
    (extractStridedSlice S512x1 ![0, 0]
      (Host.reduceAdd s (constant S_ .f32 0x00000000#32) reducesTo_S2x512x128_S512x128_d0 h_S_) slices_S512x128_S512x1_0_0)
    shapeCasts_S512x1_S512

/-- Row `r` of the 512 stacked rows, at column `k` (of whatever column type): the first 256 rows are `a`'s, the last 256 are `b`'s. -/
def stacked {α κ : Type} (a b : Fin 256 → κ → α) (r : Fin 512) (k : κ) : α :=
  if h : r.val < 256 then a ⟨r.val, h⟩ k else b ⟨r.val - 256, by have := r.isLt; omega⟩ k

end Cert.Spec

end
-- ==== Proof.KI.ValDefs.lean ====
/-
  The vocabulary of the kernel's value at the exact instance. At one grid point the body sees a chunk of 4096 columns of
  both arguments (two 256 x 4096 blocks). Stacked, they are 512 rows of length 4096; the point adds to the partial Gram
  block the Gram matrix of those rows, and to the partial squared-norm block (on every one of its 128 lanes) each row's
  sum of squares.
-/
import proofs.«400202_j48155173323219_3_alg».proof.Proof.KI.Frame
import proofs.«400202_j48155173323219_3_alg».proof.Proof.Spec
import Idealize.ShloMosaic.Lib.ValueIdx
import Idealize.ShloMosaic.PureOps.Ideal

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Row `r` of the 512 stacked rows of a chunk, at the chunk's column `j`. -/
abbrev blkRows (x0 x1 : Vec Ideal S256x4096 .f32) (r : Fin 512) (j : Fin 4096) : Elt Ideal .f32 :=
  Cert.Spec.stacked (fun p j => x0 (ix2 p j)) (fun p j => x1 (ix2 p j)) r j

/-- What one chunk adds to the Gram entry of rows `r`, `s`. -/
def gramInc (x0 x1 : Vec Ideal S256x4096 .f32) (r s : Fin 512) : Elt Ideal .f32 :=
  ∑ j : Fin 4096, blkRows x0 x1 r j * blkRows x0 x1 s j

/-- What one chunk adds to row `r`'s squared norm. -/
def sqInc (x0 x1 : Vec Ideal S256x4096 .f32) (r : Fin 512) : Elt Ideal .f32 :=
  ∑ j : Fin 4096, blkRows x0 x1 r j * blkRows x0 x1 r j

end Cert.KernelIdeal.Val

end
-- ==== Proof.KI.ValGram.lean ====
/-
  The partial Gram block after one grid point, read at an entry. At a point the body sees two 256 x 4096 blocks; stacked
  they are 512 rows of length 4096, and the body adds to each of the four 256 x 256 quadrants of the 512 x 512 block the
  product, along the columns, of the two blocks of rows that quadrant pairs: first with first, first with second, second
  with first, second with second. Each such product's entry is the sum over the 4096 columns of the products of two
  stacked rows, so the four quadrant stores together leave, at entry (r, s), what was there plus that sum for rows r and s.
  At an accumulating point what was there is the running contents; at a resetting point it is the zero the whole block
  was set to just before, since each quadrant is loaded before any store to it other than that zero.
-/
import proofs.«400202_j48155173323219_3_alg».proof.Proof.KI.ValDefs
import Idealize.ShloMosaic.Lib.Pipeline.Value
import Idealize.ShloMosaic.PureOps.Ideal.Laws
import Idealize.ShloMosaic.Lib.ValueLayout

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The product of two blocks of rows, contracted along the columns, read at an entry -/

theorem dot_lhs_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem dot_lhs_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem dot_rhs_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem dot_rhs_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- Into the zero block, the product of `a` and `b` along their columns at entry `(p, q)` is the sum over the columns of
    the products of row `p` of `a` and row `q` of `b`. -/
theorem matmul_zero_apply (a b : FVec Ideal S256x4096 .bf16) (p q : Fin 256) :
    matmul (F := Ideal) dot_S256x4096_S256x4096_S256x256_1_1_0_0_n_n none a b (constant (F := Ideal) S256x256 .f32 0x00000000#32) (ix2 p q)
      = ∑ j : Fin 4096, a (ix2 p j) * b (ix2 q j) := by
  simp only [matmul]
  rw [Ideal.matmul_constant_zero_apply, ← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 p q) ((ValueIdx.contrEquiv1 dot_S256x4096_S256x4096_S256x256_1_1_0_0_n_n 4096 rfl rfl).symm k) = ix2 p k := funext fun a => Fin.ext (by
    match a with
    | ⟨0, _⟩ => exact dot_lhs_0 _ _
    | ⟨1, _⟩ => exact (dot_lhs_1 _ _).trans hk)
  have er : dot_S256x4096_S256x4096_S256x256_1_1_0_0_n_n.rhsIdx (ix2 p q) ((ValueIdx.contrEquiv1 dot_S256x4096_S256x4096_S256x256_1_1_0_0_n_n 4096 rfl rfl).symm k) = ix2 q k := funext fun a => Fin.ext (by
    match a with
    | ⟨0, _⟩ => exact dot_rhs_0 _ _
    | ⟨1, _⟩ => exact (dot_rhs_1 _ _).trans hk)
  rw [el, er]

/-- The narrowed first block is the block (a format change is the identity on extended reals). -/
theorem pay11_apply (x : Vec Ideal S256x4096 .f32) (y : S256x4096.Idx) : k0_pay11 (F := Ideal) x y = x y := by
  unfold k0_pay11 k0_pay7
  exact congrFun (shapeCast_self x _) y

theorem pay12_apply (x : Vec Ideal S256x4096 .f32) (y : S256x4096.Idx) : k0_pay12 (F := Ideal) x y = x y := by
  unfold k0_pay12 k0_pay8
  exact congrFun (shapeCast_self x _) y

theorem pay11_eq (x : Vec Ideal S256x4096 .f32) : k0_pay11 (F := Ideal) x = x := funext (pay11_apply x)
theorem pay12_eq (x : Vec Ideal S256x4096 .f32) : k0_pay12 (F := Ideal) x = x := funext (pay12_apply x)

/-! ## The stacked rows, and one chunk's addition to the Gram entry in each quadrant -/

theorem blkRows_lo (x0 x1 : Vec Ideal S256x4096 .f32) (p : Fin 256) (h : 0 + p.val < 512) (j : Fin 4096) :
    blkRows x0 x1 ⟨0 + p.val, h⟩ j = x0 (ix2 p j) := by
  unfold blkRows Cert.Spec.stacked
  rw [dif_pos (show 0 + p.val < 256 by omega)]
  exact congrArg (fun t : Fin 256 => x0 (ix2 t j)) (Fin.ext (Nat.zero_add p.val))

theorem blkRows_hi (x0 x1 : Vec Ideal S256x4096 .f32) (p : Fin 256) (h : 256 + p.val < 512) (j : Fin 4096) :
    blkRows x0 x1 ⟨256 + p.val, h⟩ j = x1 (ix2 p j) := by
  unfold blkRows Cert.Spec.stacked
  rw [dif_neg (show ¬(256 + p.val < 256) by omega)]
  exact congrArg (fun t : Fin 256 => x1 (ix2 t j)) (Fin.ext (show 256 + p.val - 256 = p.val by omega))

theorem gramInc_lo_lo (x0 x1 : Vec Ideal S256x4096 .f32) (p q : Fin 256) (hp : 0 + p.val < 512) (hq : 0 + q.val < 512) :
    gramInc x0 x1 ⟨0 + p.val, hp⟩ ⟨0 + q.val, hq⟩ = ∑ j : Fin 4096, x0 (ix2 p j) * x0 (ix2 q j) := by
  unfold gramInc
  exact Finset.sum_congr rfl fun j _ => by rw [blkRows_lo x0 x1 p hp j, blkRows_lo x0 x1 q hq j]

theorem gramInc_lo_hi (x0 x1 : Vec Ideal S256x4096 .f32) (p q : Fin 256) (hp : 0 + p.val < 512) (hq : 256 + q.val < 512) :
    gramInc x0 x1 ⟨0 + p.val, hp⟩ ⟨256 + q.val, hq⟩ = ∑ j : Fin 4096, x0 (ix2 p j) * x1 (ix2 q j) := by
  unfold gramInc
  exact Finset.sum_congr rfl fun j _ => by rw [blkRows_lo x0 x1 p hp j, blkRows_hi x0 x1 q hq j]

theorem gramInc_hi_lo (x0 x1 : Vec Ideal S256x4096 .f32) (p q : Fin 256) (hp : 256 + p.val < 512) (hq : 0 + q.val < 512) :
    gramInc x0 x1 ⟨256 + p.val, hp⟩ ⟨0 + q.val, hq⟩ = ∑ j : Fin 4096, x1 (ix2 p j) * x0 (ix2 q j) := by
  unfold gramInc
  exact Finset.sum_congr rfl fun j _ => by rw [blkRows_hi x0 x1 p hp j, blkRows_lo x0 x1 q hq j]

theorem gramInc_hi_hi (x0 x1 : Vec Ideal S256x4096 .f32) (p q : Fin 256) (hp : 256 + p.val < 512) (hq : 256 + q.val < 512) :
    gramInc x0 x1 ⟨256 + p.val, hp⟩ ⟨256 + q.val, hq⟩ = ∑ j : Fin 4096, x1 (ix2 p j) * x1 (ix2 q j) := by
  unfold gramInc
  exact Finset.sum_congr rfl fun j _ => by rw [blkRows_hi x0 x1 p hp j, blkRows_hi x0 x1 q hq j]

/-! ## The four stored quadrants at an entry: the quadrant loaded plus the product of the two blocks of rows -/

/-- A quadrant loaded as a `[1, 256, 256]` block, plus a `[256, 256]` product, stored back as a `[1, 256, 256]` block. -/
theorem quadrant_add_apply (v : Vec Ideal S1x256x256 .f32) (g : FVec Ideal S256x256 .f32) (a : Fin 1) (p q : Fin 256) :
    shapeCast S1x256x256 (addf (shapeCast S256x256 v shapeCasts_S1x256x256_S256x256) g) shapeCasts_S256x256_S1x256x256 (ix3 a p q)
      = v (ix3 (0 : Fin 1) p q) + g (ix2 p q) := by
  refine (ValueIdx.shapeCast_ab_1ab_apply _ shapeCasts_S256x256_S1x256x256 a p q).trans ?_
  show shapeCast S256x256 v shapeCasts_S1x256x256_S256x256 (ix2 p q) + g (ix2 p q) = _
  exact congrArg (· + g (ix2 p q)) (ValueIdx.shapeCast_1ab_ab_apply v shapeCasts_S1x256x256_S256x256 p q)

theorem pay1_apply (x0 : Vec Ideal S256x4096 .f32) (v : Vec Ideal S1x256x256 .f32) (a : Fin 1) (p q : Fin 256) :
    k0_pay1 (F := Ideal) (k0_pay13 (F := Ideal) x0) v (ix3 a p q) = v (ix3 (0 : Fin 1) p q) + ∑ j : Fin 4096, x0 (ix2 p j) * x0 (ix2 q j) := by
  unfold k0_pay1
  refine (quadrant_add_apply v _ a p q).trans ?_
  refine congrArg (v (ix3 (0 : Fin 1) p q) + ·) ?_
  unfold k0_pay13
  refine (matmul_zero_apply _ _ p q).trans ?_
  exact Finset.sum_congr rfl fun j _ => by rw [pay11_apply x0 (ix2 p j), pay11_apply x0 (ix2 q j)]

theorem pay2_apply (x0 x1 : Vec Ideal S256x4096 .f32) (v : Vec Ideal S1x256x256 .f32) (a : Fin 1) (p q : Fin 256) :
    k0_pay2 (F := Ideal) (k0_pay14 (F := Ideal) x0 x1) v (ix3 a p q) = v (ix3 (0 : Fin 1) p q) + ∑ j : Fin 4096, x0 (ix2 p j) * x1 (ix2 q j) := by
  unfold k0_pay2
  refine (quadrant_add_apply v _ a p q).trans ?_
  refine congrArg (v (ix3 (0 : Fin 1) p q) + ·) ?_
  unfold k0_pay14
  refine (matmul_zero_apply _ _ p q).trans ?_
  exact Finset.sum_congr rfl fun j _ => by rw [pay11_apply, pay12_apply]

theorem pay3_apply (x0 x1 : Vec Ideal S256x4096 .f32) (v : Vec Ideal S1x256x256 .f32) (a : Fin 1) (p q : Fin 256) :
    k0_pay3 (F := Ideal) (k0_pay11 (F := Ideal) x0) (k0_pay12 (F := Ideal) x1) v (ix3 a p q) = v (ix3 (0 : Fin 1) p q) + ∑ j : Fin 4096, x1 (ix2 p j) * x0 (ix2 q j) := by
  unfold k0_pay3
  refine (quadrant_add_apply v _ a p q).trans ?_
  refine congrArg (v (ix3 (0 : Fin 1) p q) + ·) ?_
  refine (matmul_zero_apply _ _ p q).trans ?_
  exact Finset.sum_congr rfl fun j _ => by rw [pay11_apply, pay12_apply]

theorem pay4_apply (x1 : Vec Ideal S256x4096 .f32) (v : Vec Ideal S1x256x256 .f32) (a : Fin 1) (p q : Fin 256) :
    k0_pay4 (F := Ideal) (k0_pay12 (F := Ideal) x1) v (ix3 a p q) = v (ix3 (0 : Fin 1) p q) + ∑ j : Fin 4096, x1 (ix2 p j) * x1 (ix2 q j) := by
  unfold k0_pay4
  refine (quadrant_add_apply v _ a p q).trans ?_
  refine congrArg (v (ix3 (0 : Fin 1) p q) + ·) ?_
  refine (matmul_zero_apply _ _ p q).trans ?_
  exact Finset.sum_congr rfl fun j _ => by rw [pay12_apply x1 (ix2 p j), pay12_apply x1 (ix2 q j)]

/-! ## The four quadrants of the block: which entries a quadrant's store holds, and what the stores leave -/

/-- Entry `(r, s)` of the block is in the quadrant whose rows start at `o1` and whose columns start at `o2` exactly when
    `r` and `s` are within 256 of those starts. -/
theorem mem_quad (o1 o2 : ℕ) (inb : ∀ a, (![0, o1, o2] : Fin 3 → ℕ) a + (![1, 256, 256] : Fin 3 → ℕ) a ≤ S1x512x512.size a)
    (r s : ℕ) (hr : r < 512) (hs : s < 512) :
    ix3 (0 : Fin 1) (⟨r, hr⟩ : Fin 512) (⟨s, hs⟩ : Fin 512) ∈ (Rect.unit (s := S1x512x512) ![0, o1, o2] ![1, 256, 256] inb).set
      ↔ (o1 ≤ r ∧ r < o1 + 256) ∧ (o2 ≤ s ∧ s < o2 + 256) := by
  rw [Rect.mem_set_unit]
  constructor
  · intro h
    exact ⟨h 1, h 2⟩
  · intro h a
    match a with
    | ⟨0, _⟩ => show 0 ≤ 0 ∧ 0 < 0 + 1; omega
    | ⟨1, _⟩ => exact h.1
    | ⟨2, _⟩ => exact h.2

/-- The quadrant's own entry `(p, q)` sits at entry `(o1 + p, o2 + q)` of the block. -/
theorem emb_quad (o1 o2 : ℕ) (inb : ∀ a, (![0, o1, o2] : Fin 3 → ℕ) a + (![1, 256, 256] : Fin 3 → ℕ) a ≤ S1x512x512.size a)
    (p q : Fin 256) (h1 : o1 + p.val < 512) (h2 : o2 + q.val < 512) :
    (Rect.unit (s := S1x512x512) ![0, o1, o2] ![1, 256, 256] inb).emb (ix3 (0 : Fin 1) p q)
      = ix3 (0 : Fin 1) (⟨o1 + p.val, h1⟩ : Fin 512) (⟨o2 + q.val, h2⟩ : Fin 512) := by
  funext b
  apply Fin.ext
  match b with
  | ⟨0, _⟩ => show 0 + 1 * 0 = 0; omega
  | ⟨1, _⟩ => show o1 + 1 * p.val = o1 + p.val; omega
  | ⟨2, _⟩ => show o2 + 1 * q.val = o2 + q.val; omega

/-- Off a quadrant, its store leaves what the earlier stores left. -/
theorem canon_skip_quad (o1 o2 : ℕ) (inb : ∀ a, (![0, o1, o2] : Fin 3 → ℕ) a + (![1, 256, 256] : Fin 3 → ℕ) a ≤ S1x512x512.size a)
    (w : (Rect.unit (s := S1x512x512) ![0, o1, o2] ![1, 256, 256] inb).shape.Idx → Elt Ideal .f32)
    (L : List (View.Piece (Elt Ideal) S1x512x512 .f32)) (r s : ℕ) (hr : r < 512) (hs : s < 512)
    (h : ¬((o1 ≤ r ∧ r < o1 + 256) ∧ (o2 ≤ s ∧ s < o2 + 256))) :
    View.canon (⟨Rect.unit (s := S1x512x512) ![0, o1, o2] ![1, 256, 256] inb, w⟩ :: L) (ix3 (0 : Fin 1) (⟨r, hr⟩ : Fin 512) (⟨s, hs⟩ : Fin 512))
      = View.canon L (ix3 (0 : Fin 1) (⟨r, hr⟩ : Fin 512) (⟨s, hs⟩ : Fin 512)) :=
  View.canon_cons_of_not_mem _ L (fun hm => h ((mem_quad o1 o2 inb r s hr hs).mp hm))

/-- On a quadrant, its store (the last made) leaves its payload. -/
theorem canon_hit_quad (o1 o2 : ℕ) (inb : ∀ a, (![0, o1, o2] : Fin 3 → ℕ) a + (![1, 256, 256] : Fin 3 → ℕ) a ≤ S1x512x512.size a)
    (w : (Rect.unit (s := S1x512x512) ![0, o1, o2] ![1, 256, 256] inb).shape.Idx → Elt Ideal .f32)
    (L : List (View.Piece (Elt Ideal) S1x512x512 .f32)) (p q : Fin 256) (h1 : o1 + p.val < 512) (h2 : o2 + q.val < 512) :
    View.canon (⟨Rect.unit (s := S1x512x512) ![0, o1, o2] ![1, 256, 256] inb, w⟩ :: L) (ix3 (0 : Fin 1) (⟨o1 + p.val, h1⟩ : Fin 512) (⟨o2 + q.val, h2⟩ : Fin 512))
      = w (ix3 (0 : Fin 1) p q) := by
  rw [← emb_quad o1 o2 inb p q h1 h2]
  exact View.canon_cons_emb _ w L _

/-- A row of the 512 is a row of the first half or a row of the second half. -/
theorem fin512_cases (r : Fin 512) :
    (∃ p : Fin 256, r = ⟨0 + p.val, by omega⟩) ∨ (∃ p : Fin 256, r = ⟨256 + p.val, by omega⟩) := by
  by_cases hr : r.val < 256
  · exact .inl ⟨⟨r.val, hr⟩, Fin.ext (Nat.zero_add _).symm⟩
  · exact .inr ⟨⟨r.val - 256, by omega⟩, Fin.ext (by show r.val = 256 + (r.val - 256); omega)⟩

/-- Four quadrant stores — rows and columns from 256, rows from 256, columns from 256, the first rows and columns, last
    made first — whose payloads are the quadrants of one function `G` of the entry leave `G`, whatever was stored before. -/
theorem canon_quadrants (G : Fin 512 → Fin 512 → Elt Ideal .f32)
    (inb11 : ∀ a, (![0, 256, 256] : Fin 3 → ℕ) a + (![1, 256, 256] : Fin 3 → ℕ) a ≤ S1x512x512.size a)
    (inb10 : ∀ a, (![0, 256, 0] : Fin 3 → ℕ) a + (![1, 256, 256] : Fin 3 → ℕ) a ≤ S1x512x512.size a)
    (inb01 : ∀ a, (![0, 0, 256] : Fin 3 → ℕ) a + (![1, 256, 256] : Fin 3 → ℕ) a ≤ S1x512x512.size a)
    (inb00 : ∀ a, (![0, 0, 0] : Fin 3 → ℕ) a + (![1, 256, 256] : Fin 3 → ℕ) a ≤ S1x512x512.size a)
    (w11 : (Rect.unit (s := S1x512x512) ![0, 256, 256] ![1, 256, 256] inb11).shape.Idx → Elt Ideal .f32)
    (w10 : (Rect.unit (s := S1x512x512) ![0, 256, 0] ![1, 256, 256] inb10).shape.Idx → Elt Ideal .f32)
    (w01 : (Rect.unit (s := S1x512x512) ![0, 0, 256] ![1, 256, 256] inb01).shape.Idx → Elt Ideal .f32)
    (w00 : (Rect.unit (s := S1x512x512) ![0, 0, 0] ![1, 256, 256] inb00).shape.Idx → Elt Ideal .f32)
    (L' : List (View.Piece (Elt Ideal) S1x512x512 .f32))
    (h11 : ∀ p q : Fin 256, w11 (ix3 (0 : Fin 1) p q) = G ⟨256 + p.val, by omega⟩ ⟨256 + q.val, by omega⟩)
    (h10 : ∀ p q : Fin 256, w10 (ix3 (0 : Fin 1) p q) = G ⟨256 + p.val, by omega⟩ ⟨0 + q.val, by omega⟩)
    (h01 : ∀ p q : Fin 256, w01 (ix3 (0 : Fin 1) p q) = G ⟨0 + p.val, by omega⟩ ⟨256 + q.val, by omega⟩)
    (h00 : ∀ p q : Fin 256, w00 (ix3 (0 : Fin 1) p q) = G ⟨0 + p.val, by omega⟩ ⟨0 + q.val, by omega⟩)
    (r s : Fin 512) :
    View.canon (⟨Rect.unit (s := S1x512x512) ![0, 256, 256] ![1, 256, 256] inb11, w11⟩
        :: ⟨Rect.unit (s := S1x512x512) ![0, 256, 0] ![1, 256, 256] inb10, w10⟩
        :: ⟨Rect.unit (s := S1x512x512) ![0, 0, 256] ![1, 256, 256] inb01, w01⟩
        :: ⟨Rect.unit (s := S1x512x512) ![0, 0, 0] ![1, 256, 256] inb00, w00⟩ :: L') (ix3 (0 : Fin 1) r s) = G r s := by
  rcases fin512_cases r with ⟨p, rfl⟩ | ⟨p, rfl⟩ <;> rcases fin512_cases s with ⟨q, rfl⟩ | ⟨q, rfl⟩
  · rw [canon_skip_quad 256 256 inb11 w11 _ (0 + p.val) (0 + q.val) _ _ (by omega),
      canon_skip_quad 256 0 inb10 w10 _ (0 + p.val) (0 + q.val) _ _ (by omega),
      canon_skip_quad 0 256 inb01 w01 _ (0 + p.val) (0 + q.val) _ _ (by omega)]
    exact (canon_hit_quad 0 0 inb00 w00 L' p q _ _).trans (h00 p q)
  · rw [canon_skip_quad 256 256 inb11 w11 _ (0 + p.val) (256 + q.val) _ _ (by omega),
      canon_skip_quad 256 0 inb10 w10 _ (0 + p.val) (256 + q.val) _ _ (by omega)]
    exact (canon_hit_quad 0 256 inb01 w01 _ p q _ _).trans (h01 p q)
  · rw [canon_skip_quad 256 256 inb11 w11 _ (256 + p.val) (0 + q.val) _ _ (by omega)]
    exact (canon_hit_quad 256 0 inb10 w10 _ p q _ _).trans (h10 p q)
  · exact (canon_hit_quad 256 256 inb11 w11 _ p q _ _).trans (h11 p q)

/-! ## What an accumulating point leaves: the running contents plus the chunk's Gram matrix -/

theorem zeros2 : (![0, 0] : Fin 2 → ℕ) = fun _ => 0 := funext fun a => by fin_cases a <;> rfl

/-- The running contents read through a quadrant's rectangle, at the quadrant's entry `(p, q)`. -/
theorem ld_quad (xo2 : Vec Ideal S1x512x512 .f32) (o1 o2 : ℕ)
    (inb : ∀ a, (![0, o1, o2] : Fin 3 → ℕ) a + (![1, 256, 256] : Fin 3 → ℕ) a ≤ S1x512x512.size a)
    (p q : Fin 256) (h1 : o1 + p.val < 512) (h2 : o2 + q.val < 512) :
    View.ld xo2 (Rect.unit (s := S1x512x512) ![0, o1, o2] ![1, 256, 256] inb) (ix3 (0 : Fin 1) p q)
      = xo2 (ix3 (0 : Fin 1) (⟨o1 + p.val, h1⟩ : Fin 512) (⟨o2 + q.val, h2⟩ : Fin 512)) :=
  congrArg xo2 (emb_quad o1 o2 inb p q h1 h2)

theorem accQuad11 (x0 x1 : Vec Ideal S256x4096 .f32) (xo2 : Vec Ideal S1x512x512 .f32)
    (inb : ∀ a, (![0, 256, 256] : Fin 3 → ℕ) a + (![1, 256, 256] : Fin 3 → ℕ) a ≤ S1x512x512.size a) (p q : Fin 256) :
    k0_pay4 (F := Ideal) (k0_pay12 (F := Ideal) x1) (View.ld xo2 (Rect.unit (s := S1x512x512) ![0, 256, 256] ![1, 256, 256] inb)) (ix3 (0 : Fin 1) p q)
      = xo2 (ix3 (0 : Fin 1) (⟨256 + p.val, by omega⟩ : Fin 512) (⟨256 + q.val, by omega⟩ : Fin 512))
        + gramInc x0 x1 ⟨256 + p.val, by omega⟩ ⟨256 + q.val, by omega⟩ := by
  rw [gramInc_hi_hi x0 x1 p q, ← ld_quad xo2 256 256 inb p q]
  exact pay4_apply x1 _ 0 p q

theorem accQuad10 (x0 x1 : Vec Ideal S256x4096 .f32) (xo2 : Vec Ideal S1x512x512 .f32)
    (inb : ∀ a, (![0, 256, 0] : Fin 3 → ℕ) a + (![1, 256, 256] : Fin 3 → ℕ) a ≤ S1x512x512.size a) (p q : Fin 256) :
    k0_pay3 (F := Ideal) (k0_pay11 (F := Ideal) x0) (k0_pay12 (F := Ideal) x1) (View.ld xo2 (Rect.unit (s := S1x512x512) ![0, 256, 0] ![1, 256, 256] inb)) (ix3 (0 : Fin 1) p q)
      = xo2 (ix3 (0 : Fin 1) (⟨256 + p.val, by omega⟩ : Fin 512) (⟨0 + q.val, by omega⟩ : Fin 512))
        + gramInc x0 x1 ⟨256 + p.val, by omega⟩ ⟨0 + q.val, by omega⟩ := by
  rw [gramInc_hi_lo x0 x1 p q, ← ld_quad xo2 256 0 inb p q]
  exact pay3_apply x0 x1 _ 0 p q

theorem accQuad01 (x0 x1 : Vec Ideal S256x4096 .f32) (xo2 : Vec Ideal S1x512x512 .f32)
    (inb : ∀ a, (![0, 0, 256] : Fin 3 → ℕ) a + (![1, 256, 256] : Fin 3 → ℕ) a ≤ S1x512x512.size a) (p q : Fin 256) :
    k0_pay2 (F := Ideal) (k0_pay14 (F := Ideal) x0 x1) (View.ld xo2 (Rect.unit (s := S1x512x512) ![0, 0, 256] ![1, 256, 256] inb)) (ix3 (0 : Fin 1) p q)
      = xo2 (ix3 (0 : Fin 1) (⟨0 + p.val, by omega⟩ : Fin 512) (⟨256 + q.val, by omega⟩ : Fin 512))
        + gramInc x0 x1 ⟨0 + p.val, by omega⟩ ⟨256 + q.val, by omega⟩ := by
  rw [gramInc_lo_hi x0 x1 p q, ← ld_quad xo2 0 256 inb p q]
  exact pay2_apply x0 x1 _ 0 p q

theorem accQuad00 (x0 x1 : Vec Ideal S256x4096 .f32) (xo2 : Vec Ideal S1x512x512 .f32)
    (inb : ∀ a, (![0, 0, 0] : Fin 3 → ℕ) a + (![1, 256, 256] : Fin 3 → ℕ) a ≤ S1x512x512.size a) (p q : Fin 256) :
    k0_pay1 (F := Ideal) (k0_pay13 (F := Ideal) x0) (View.ld xo2 (Rect.unit (s := S1x512x512) ![0, 0, 0] ![1, 256, 256] inb)) (ix3 (0 : Fin 1) p q)
      = xo2 (ix3 (0 : Fin 1) (⟨0 + p.val, by omega⟩ : Fin 512) (⟨0 + q.val, by omega⟩ : Fin 512))
        + gramInc x0 x1 ⟨0 + p.val, by omega⟩ ⟨0 + q.val, by omega⟩ := by
  rw [gramInc_lo_lo x0 x1 p q, ← ld_quad xo2 0 0 inb p q]
  exact pay1_apply x0 _ 0 p q

theorem outB2_apply (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec Ideal S256x4096 .f32) (xo2 : Vec Ideal S1x512x512 .f32) (xo3 : Vec Ideal S1x512x128 .f32) (r s : Fin 512) :
    out0_B_2 (F := Ideal) c i arg2 harg2 arg3 harg3 arg4 harg4 arg5 harg5 hc0 x0 x1 xo2 xo3 (ix3 (0 : Fin 1) r s) = xo2 (ix3 (0 : Fin 1) r s) + gramInc x0 x1 r s := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  simp only [View.readAt_eq_ld, harg2.read_unread, harg3.read_unread, harg4.read_unread, View.ld_unit_zero (S := S256x4096) zeros2]
  exact canon_quadrants (fun r s => xo2 (ix3 (0 : Fin 1) r s) + gramInc x0 x1 r s) _ _ _ _ _ _ _ _ []
    (accQuad11 x0 x1 xo2 _) (accQuad10 x0 x1 xo2 _) (accQuad01 x0 x1 xo2 _) (accQuad00 x0 x1 xo2 _) r s

/-! ## What a resetting point leaves: the chunk's Gram matrix over the zero block -/

theorem zeros3 : (![0, 0, 0] : Fin 3 → ℕ) = fun _ => 0 := funext fun a => by fin_cases a <;> rfl

/-- The whole-block zero store, alone, leaves zero at every entry. -/
theorem canon_zero (inbZ : ∀ a, (![0, 0, 0] : Fin 3 → ℕ) a + (![1, 512, 512] : Fin 3 → ℕ) a ≤ S1x512x512.size a) (y : S1x512x512.Idx) :
    View.canon [(⟨Rect.unit (s := S1x512x512) ![0, 0, 0] ![1, 512, 512] inbZ, k0_pay5 (F := Ideal)⟩ : View.Piece (Elt Ideal) S1x512x512 .f32)] y = (0 : EReal) := by
  refine (congrFun (View.canon_unit_zero (Val := Elt Ideal) (S := S1x512x512) (e := .f32) zeros3 inbZ (k0_pay5 (F := Ideal))) y).trans ?_
  unfold k0_pay5
  exact Ideal.ofBits_zero_f32

/-- A quadrant loaded after earlier stores reads what those stores left at the quadrant's entries. -/
theorem load_quad (arg4 : Memref sig .tc .vmem S1x512x512 .f32) (L : List (View.Piece (Elt Ideal) S1x512x512 .f32)) (o1 o2 : ℕ)
    (inb : ∀ a, (![0, o1, o2] : Fin 3 → ℕ) a + (![1, 256, 256] : Fin 3 → ℕ) a ≤ S1x512x512.size a)
    (p q : Fin 256) (h1 : o1 + p.val < 512) (h2 : o2 + q.val < 512) :
    arg4.view.readCov L (Rect.unit (s := S1x512x512) ![0, o1, o2] ![1, 256, 256] inb).toLoadRect (ix3 (0 : Fin 1) p q)
      = View.canon L (ix3 (0 : Fin 1) (⟨o1 + p.val, h1⟩ : Fin 512) (⟨o2 + q.val, h2⟩ : Fin 512)) := by
  rw [View.readCov_eq_canon']
  exact congrArg (View.canon L) (emb_quad o1 o2 inb p q h1 h2)

/-- Before its own store, each quadrant still holds the zeros: the stores made so far went to other quadrants. -/
theorem zero_before01
    (inb00 : ∀ a, (![0, 0, 0] : Fin 3 → ℕ) a + (![1, 256, 256] : Fin 3 → ℕ) a ≤ S1x512x512.size a)
    (inbZ : ∀ a, (![0, 0, 0] : Fin 3 → ℕ) a + (![1, 512, 512] : Fin 3 → ℕ) a ≤ S1x512x512.size a)
    (w00 : (Rect.unit (s := S1x512x512) ![0, 0, 0] ![1, 256, 256] inb00).shape.Idx → Elt Ideal .f32) (p q : Fin 256) :
    View.canon [⟨Rect.unit (s := S1x512x512) ![0, 0, 0] ![1, 256, 256] inb00, w00⟩,
        ⟨Rect.unit (s := S1x512x512) ![0, 0, 0] ![1, 512, 512] inbZ, k0_pay5 (F := Ideal)⟩]
      (ix3 (0 : Fin 1) (⟨0 + p.val, by omega⟩ : Fin 512) (⟨256 + q.val, by omega⟩ : Fin 512)) = (0 : EReal) := by
  rw [canon_skip_quad 0 0 inb00 w00 _ (0 + p.val) (256 + q.val) _ _ (by omega)]
  exact canon_zero inbZ _

theorem zero_before10
    (inb01 : ∀ a, (![0, 0, 256] : Fin 3 → ℕ) a + (![1, 256, 256] : Fin 3 → ℕ) a ≤ S1x512x512.size a)
    (inb00 : ∀ a, (![0, 0, 0] : Fin 3 → ℕ) a + (![1, 256, 256] : Fin 3 → ℕ) a ≤ S1x512x512.size a)
    (inbZ : ∀ a, (![0, 0, 0] : Fin 3 → ℕ) a + (![1, 512, 512] : Fin 3 → ℕ) a ≤ S1x512x512.size a)
    (w01 : (Rect.unit (s := S1x512x512) ![0, 0, 256] ![1, 256, 256] inb01).shape.Idx → Elt Ideal .f32)
    (w00 : (Rect.unit (s := S1x512x512) ![0, 0, 0] ![1, 256, 256] inb00).shape.Idx → Elt Ideal .f32) (p q : Fin 256) :
    View.canon [⟨Rect.unit (s := S1x512x512) ![0, 0, 256] ![1, 256, 256] inb01, w01⟩,
        ⟨Rect.unit (s := S1x512x512) ![0, 0, 0] ![1, 256, 256] inb00, w00⟩,
        ⟨Rect.unit (s := S1x512x512) ![0, 0, 0] ![1, 512, 512] inbZ, k0_pay5 (F := Ideal)⟩]
      (ix3 (0 : Fin 1) (⟨256 + p.val, by omega⟩ : Fin 512) (⟨0 + q.val, by omega⟩ : Fin 512)) = (0 : EReal) := by
  rw [canon_skip_quad 0 256 inb01 w01 _ (256 + p.val) (0 + q.val) _ _ (by omega),
    canon_skip_quad 0 0 inb00 w00 _ (256 + p.val) (0 + q.val) _ _ (by omega)]
  exact canon_zero inbZ _

theorem zero_before11
    (inb10 : ∀ a, (![0, 256, 0] : Fin 3 → ℕ) a + (![1, 256, 256] : Fin 3 → ℕ) a ≤ S1x512x512.size a)
    (inb01 : ∀ a, (![0, 0, 256] : Fin 3 → ℕ) a + (![1, 256, 256] : Fin 3 → ℕ) a ≤ S1x512x512.size a)
    (inb00 : ∀ a, (![0, 0, 0] : Fin 3 → ℕ) a + (![1, 256, 256] : Fin 3 → ℕ) a ≤ S1x512x512.size a)
    (inbZ : ∀ a, (![0, 0, 0] : Fin 3 → ℕ) a + (![1, 512, 512] : Fin 3 → ℕ) a ≤ S1x512x512.size a)
    (w10 : (Rect.unit (s := S1x512x512) ![0, 256, 0] ![1, 256, 256] inb10).shape.Idx → Elt Ideal .f32)
    (w01 : (Rect.unit (s := S1x512x512) ![0, 0, 256] ![1, 256, 256] inb01).shape.Idx → Elt Ideal .f32)
    (w00 : (Rect.unit (s := S1x512x512) ![0, 0, 0] ![1, 256, 256] inb00).shape.Idx → Elt Ideal .f32) (p q : Fin 256) :
    View.canon [⟨Rect.unit (s := S1x512x512) ![0, 256, 0] ![1, 256, 256] inb10, w10⟩,
        ⟨Rect.unit (s := S1x512x512) ![0, 0, 256] ![1, 256, 256] inb01, w01⟩,
        ⟨Rect.unit (s := S1x512x512) ![0, 0, 0] ![1, 256, 256] inb00, w00⟩,
        ⟨Rect.unit (s := S1x512x512) ![0, 0, 0] ![1, 512, 512] inbZ, k0_pay5 (F := Ideal)⟩]
      (ix3 (0 : Fin 1) (⟨256 + p.val, by omega⟩ : Fin 512) (⟨256 + q.val, by omega⟩ : Fin 512)) = (0 : EReal) := by
  rw [canon_skip_quad 256 0 inb10 w10 _ (256 + p.val) (256 + q.val) _ _ (by omega),
    canon_skip_quad 0 256 inb01 w01 _ (256 + p.val) (256 + q.val) _ _ (by omega),
    canon_skip_quad 0 0 inb00 w00 _ (256 + p.val) (256 + q.val) _ _ (by omega)]
  exact canon_zero inbZ _

/-- So each quadrant's store, at a resetting point, is the chunk's Gram quadrant. -/
theorem resetQuad00 (x0 x1 : Vec Ideal S256x4096 .f32) (arg4 : Memref sig .tc .vmem S1x512x512 .f32)
    (inb00 : ∀ a, (![0, 0, 0] : Fin 3 → ℕ) a + (![1, 256, 256] : Fin 3 → ℕ) a ≤ S1x512x512.size a)
    (inbZ : ∀ a, (![0, 0, 0] : Fin 3 → ℕ) a + (![1, 512, 512] : Fin 3 → ℕ) a ≤ S1x512x512.size a) (p q : Fin 256) :
    k0_pay1 (F := Ideal) (k0_pay13 (F := Ideal) x0)
        (arg4.view.readCov [⟨Rect.unit (s := S1x512x512) ![0, 0, 0] ![1, 512, 512] inbZ, k0_pay5 (F := Ideal)⟩]
          (Rect.unit (s := S1x512x512) ![0, 0, 0] ![1, 256, 256] inb00).toLoadRect) (ix3 (0 : Fin 1) p q)
      = gramInc x0 x1 ⟨0 + p.val, by omega⟩ ⟨0 + q.val, by omega⟩ := by
  rw [gramInc_lo_lo x0 x1 p q]
  refine (pay1_apply x0 _ 0 p q).trans ?_
  rw [load_quad arg4 _ 0 0 inb00 p q (by omega) (by omega), canon_zero inbZ]
  exact zero_add _

theorem resetQuad01 (x0 x1 : Vec Ideal S256x4096 .f32) (arg4 : Memref sig .tc .vmem S1x512x512 .f32)
    (inb01 : ∀ a, (![0, 0, 256] : Fin 3 → ℕ) a + (![1, 256, 256] : Fin 3 → ℕ) a ≤ S1x512x512.size a)
    (inb00 : ∀ a, (![0, 0, 0] : Fin 3 → ℕ) a + (![1, 256, 256] : Fin 3 → ℕ) a ≤ S1x512x512.size a)
    (inbZ : ∀ a, (![0, 0, 0] : Fin 3 → ℕ) a + (![1, 512, 512] : Fin 3 → ℕ) a ≤ S1x512x512.size a)
    (w00 : (Rect.unit (s := S1x512x512) ![0, 0, 0] ![1, 256, 256] inb00).shape.Idx → Elt Ideal .f32) (p q : Fin 256) :
    k0_pay2 (F := Ideal) (k0_pay14 (F := Ideal) x0 x1)
        (arg4.view.readCov [⟨Rect.unit (s := S1x512x512) ![0, 0, 0] ![1, 256, 256] inb00, w00⟩,
            ⟨Rect.unit (s := S1x512x512) ![0, 0, 0] ![1, 512, 512] inbZ, k0_pay5 (F := Ideal)⟩]
          (Rect.unit (s := S1x512x512) ![0, 0, 256] ![1, 256, 256] inb01).toLoadRect) (ix3 (0 : Fin 1) p q)
      = gramInc x0 x1 ⟨0 + p.val, by omega⟩ ⟨256 + q.val, by omega⟩ := by
  rw [gramInc_lo_hi x0 x1 p q]
  refine (pay2_apply x0 x1 _ 0 p q).trans ?_
  rw [load_quad arg4 _ 0 256 inb01 p q (by omega) (by omega), zero_before01 inb00 inbZ w00 p q]
  exact zero_add _

theorem resetQuad10 (x0 x1 : Vec Ideal S256x4096 .f32) (arg4 : Memref sig .tc .vmem S1x512x512 .f32)
    (inb10 : ∀ a, (![0, 256, 0] : Fin 3 → ℕ) a + (![1, 256, 256] : Fin 3 → ℕ) a ≤ S1x512x512.size a)
    (inb01 : ∀ a, (![0, 0, 256] : Fin 3 → ℕ) a + (![1, 256, 256] : Fin 3 → ℕ) a ≤ S1x512x512.size a)
    (inb00 : ∀ a, (![0, 0, 0] : Fin 3 → ℕ) a + (![1, 256, 256] : Fin 3 → ℕ) a ≤ S1x512x512.size a)
    (inbZ : ∀ a, (![0, 0, 0] : Fin 3 → ℕ) a + (![1, 512, 512] : Fin 3 → ℕ) a ≤ S1x512x512.size a)
    (w01 : (Rect.unit (s := S1x512x512) ![0, 0, 256] ![1, 256, 256] inb01).shape.Idx → Elt Ideal .f32)
    (w00 : (Rect.unit (s := S1x512x512) ![0, 0, 0] ![1, 256, 256] inb00).shape.Idx → Elt Ideal .f32) (p q : Fin 256) :
    k0_pay3 (F := Ideal) (k0_pay11 (F := Ideal) x0) (k0_pay12 (F := Ideal) x1)
        (arg4.view.readCov [⟨Rect.unit (s := S1x512x512) ![0, 0, 256] ![1, 256, 256] inb01, w01⟩,
            ⟨Rect.unit (s := S1x512x512) ![0, 0, 0] ![1, 256, 256] inb00, w00⟩,
            ⟨Rect.unit (s := S1x512x512) ![0, 0, 0] ![1, 512, 512] inbZ, k0_pay5 (F := Ideal)⟩]
          (Rect.unit (s := S1x512x512) ![0, 256, 0] ![1, 256, 256] inb10).toLoadRect) (ix3 (0 : Fin 1) p q)
      = gramInc x0 x1 ⟨256 + p.val, by omega⟩ ⟨0 + q.val, by omega⟩ := by
  rw [gramInc_hi_lo x0 x1 p q]
  refine (pay3_apply x0 x1 _ 0 p q).trans ?_
  rw [load_quad arg4 _ 256 0 inb10 p q (by omega) (by omega), zero_before10 inb01 inb00 inbZ w01 w00 p q]
  exact zero_add _

theorem resetQuad11 (x0 x1 : Vec Ideal S256x4096 .f32) (arg4 : Memref sig .tc .vmem S1x512x512 .f32)
    (inb11 : ∀ a, (![0, 256, 256] : Fin 3 → ℕ) a + (![1, 256, 256] : Fin 3 → ℕ) a ≤ S1x512x512.size a)
    (inb10 : ∀ a, (![0, 256, 0] : Fin 3 → ℕ) a + (![1, 256, 256] : Fin 3 → ℕ) a ≤ S1x512x512.size a)
    (inb01 : ∀ a, (![0, 0, 256] : Fin 3 → ℕ) a + (![1, 256, 256] : Fin 3 → ℕ) a ≤ S1x512x512.size a)
    (inb00 : ∀ a, (![0, 0, 0] : Fin 3 → ℕ) a + (![1, 256, 256] : Fin 3 → ℕ) a ≤ S1x512x512.size a)
    (inbZ : ∀ a, (![0, 0, 0] : Fin 3 → ℕ) a + (![1, 512, 512] : Fin 3 → ℕ) a ≤ S1x512x512.size a)
    (w10 : (Rect.unit (s := S1x512x512) ![0, 256, 0] ![1, 256, 256] inb10).shape.Idx → Elt Ideal .f32)
    (w01 : (Rect.unit (s := S1x512x512) ![0, 0, 256] ![1, 256, 256] inb01).shape.Idx → Elt Ideal .f32)
    (w00 : (Rect.unit (s := S1x512x512) ![0, 0, 0] ![1, 256, 256] inb00).shape.Idx → Elt Ideal .f32) (p q : Fin 256) :
    k0_pay4 (F := Ideal) (k0_pay12 (F := Ideal) x1)
        (arg4.view.readCov [⟨Rect.unit (s := S1x512x512) ![0, 256, 0] ![1, 256, 256] inb10, w10⟩,
            ⟨Rect.unit (s := S1x512x512) ![0, 0, 256] ![1, 256, 256] inb01, w01⟩,
            ⟨Rect.unit (s := S1x512x512) ![0, 0, 0] ![1, 256, 256] inb00, w00⟩,
            ⟨Rect.unit (s := S1x512x512) ![0, 0, 0] ![1, 512, 512] inbZ, k0_pay5 (F := Ideal)⟩]
          (Rect.unit (s := S1x512x512) ![0, 256, 256] ![1, 256, 256] inb11).toLoadRect) (ix3 (0 : Fin 1) p q)
      = gramInc x0 x1 ⟨256 + p.val, by omega⟩ ⟨256 + q.val, by omega⟩ := by
  rw [gramInc_hi_hi x0 x1 p q]
  refine (pay4_apply x1 _ 0 p q).trans ?_
  rw [load_quad arg4 _ 256 256 inb11 p q (by omega) (by omega), zero_before11 inb10 inb01 inb00 inbZ w10 w01 w00 p q]
  exact zero_add _

theorem outA2_apply (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec Ideal S256x4096 .f32) (r s : Fin 512) :
    out0_A_2 (F := Ideal) c i arg2 harg2 arg3 harg3 arg4 harg4 arg5 harg5 hc0 x0 x1 (ix3 (0 : Fin 1) r s) = gramInc x0 x1 r s := by
  unfold out0_A_2
  rw [View.read_writes_eq_canon _ _ _ (cover0_A_2 c i arg2 harg2 arg3 harg3 arg4 harg4 arg5 harg5 hc0 x0 x1)]
  unfold kernelRun0_A
  dsimp only
  sl_unfold_words
  simp only [View.readAt_eq_ld, harg2.read_unread, harg3.read_unread, View.ld_unit_zero (S := S256x4096) zeros2]
  exact canon_quadrants (fun r s => gramInc x0 x1 r s) _ _ _ _ _ _ _ _ [_]
    (resetQuad11 x0 x1 arg4 _ _ _ _ _ _ _ _) (resetQuad10 x0 x1 arg4 _ _ _ _ _ _) (resetQuad01 x0 x1 arg4 _ _ _ _) (resetQuad00 x0 x1 arg4 _ _) r s

end Cert.KernelIdeal.Val

end
-- ==== Proof.KI.ValSq.lean ====
/-
  The partial squared-norm block after one grid point, read at an index. The block has 512 rows on 128 equal lanes;
  the body adds to rows 0-255 the row sums of squares of the first 256 x 4096 chunk and to rows 256-511 those of the
  second, each half by one store of (what the half held) + (the row's sum of squares, broadcast along the lanes). At a
  resetting point the block is first filled with the zero word, so the halves are read back as zero.

  Per payload: the value at (0, p, l) is the running value there plus the sum over the 4096 columns of the squared
  entry of row p (the leading unit axis dropped and put back, the pointwise square, the lane reduction from the zero
  word, the column [256, 1] broadcast to 128 lanes). Per half: a row below 256 lies only in the lower store's
  rectangle, a row from 256 on only in the upper store's; the stacked rows' increment at such a row is the first,
  respectively the second, chunk's row sum.
-/
import proofs.«400202_j48155173323219_3_alg».proof.Proof.KI.ValDefs
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A column `[a, 1]` broadcast along its unit axis to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of squares along a row of a `[256, 4096]` block: the lane reduction of the pointwise square, from the zero word. -/
theorem rowSq_apply (x : Vec Ideal S256x4096 .f32) (h : S256x4096.Reduces [1] S256) (hφ : FKind.Formats .f32)
    (hacc : (0x00000000#32 : BitVec 32) = FKind.add.neutral .f32 hφ) (p : Fin 256) :
    multiReduction (F := Ideal) .add [1] S256 (mulf (shapeCast S256x4096 x shapeCasts_S256x4096_S256x4096) (shapeCast S256x4096 x shapeCasts_S256x4096_S256x4096))
      0x00000000#32 h hφ hacc (ix1 p) = ∑ j : Fin 4096, x (ix2 p j) * x (ix2 p j) := by
  refine (Ideal.multiReduction_add_single _ _ h hφ hacc (ix1 p)).trans ?_
  refine Finset.sum_congr rfl fun k _ => ?_
  have hk : h.lift (ix1 p) k = ix2 p k := funext fun a => match a with
    | ⟨0, _⟩ => Fin.ext rfl
    | ⟨1, _⟩ => Fin.ext rfl
  rw [shapeCast_self, hk]
  rfl

theorem pay9_apply (x : Vec Ideal S256x4096 .f32) (v : Vec Ideal S1x256x128 .f32) (p : Fin 256) (l : Fin 128) :
    k0_pay9 (F := Ideal) x v (ix3 (0 : Fin 1) p l) = v (ix3 (0 : Fin 1) p l) + ∑ j : Fin 4096, x (ix2 p j) * x (ix2 p j) := by
  unfold k0_pay9 k0_pay7
  refine (ValueIdx.shapeCast_ab_1ab_apply _ _ (0 : Fin 1) p l).trans ?_
  refine (ValueIdx.addf_apply _ _ _).trans ?_
  refine congrArg₂ (· + ·) (ValueIdx.shapeCast_1ab_ab_apply v _ p l) ?_
  refine (broadcastTo_a1_ab_apply _ _ p l).trans ?_
  refine (congrFun (shapeCast_self _ _) _).trans ?_
  refine (shapeCast_a_a1_apply _ _ p (0 : Fin 1)).trans ?_
  exact rowSq_apply x _ _ _ p

theorem pay10_apply (x : Vec Ideal S256x4096 .f32) (v : Vec Ideal S1x256x128 .f32) (p : Fin 256) (l : Fin 128) :
    k0_pay10 (F := Ideal) x v (ix3 (0 : Fin 1) p l) = v (ix3 (0 : Fin 1) p l) + ∑ j : Fin 4096, x (ix2 p j) * x (ix2 p j) := by
  unfold k0_pay10 k0_pay8
  refine (ValueIdx.shapeCast_ab_1ab_apply _ _ (0 : Fin 1) p l).trans ?_
  refine (ValueIdx.addf_apply _ _ _).trans ?_
  refine congrArg₂ (· + ·) (ValueIdx.shapeCast_1ab_ab_apply v _ p l) ?_
  refine (broadcastTo_a1_ab_apply _ _ p l).trans ?_
  refine (congrFun (shapeCast_self _ _) _).trans ?_
  refine (shapeCast_a_a1_apply _ _ p (0 : Fin 1)).trans ?_
  exact rowSq_apply x _ _ _ p

/-! ## The stacked rows, half by half -/

theorem sqRows_lo (x0 x1 : Vec Ideal S256x4096 .f32) (p : Fin 256) (r : Fin 512) (hr : r.val = p.val) (j : Fin 4096) :
    blkRows x0 x1 r j = x0 (ix2 p j) := by
  have hlt : r.val < 256 := by omega
  show Cert.Spec.stacked (fun p j => x0 (ix2 p j)) (fun p j => x1 (ix2 p j)) r j = _
  unfold Cert.Spec.stacked
  rw [dif_pos hlt]
  exact congrArg (fun q => x0 (ix2 q j)) (Fin.ext hr)

theorem sqRows_hi (x0 x1 : Vec Ideal S256x4096 .f32) (p : Fin 256) (r : Fin 512) (hr : r.val = 256 + p.val) (j : Fin 4096) :
    blkRows x0 x1 r j = x1 (ix2 p j) := by
  have hge : ¬r.val < 256 := by omega
  show Cert.Spec.stacked (fun p j => x0 (ix2 p j)) (fun p j => x1 (ix2 p j)) r j = _
  unfold Cert.Spec.stacked
  rw [dif_neg hge]
  exact congrArg (fun q => x1 (ix2 q j)) (Fin.ext (by show r.val - 256 = p.val; omega))

/-- A row of the first block adds its own sum of squares; -/
theorem sqInc_lo (x0 x1 : Vec Ideal S256x4096 .f32) (p : Fin 256) (r : Fin 512) (hr : r.val = p.val) :
    sqInc x0 x1 r = ∑ j : Fin 4096, x0 (ix2 p j) * x0 (ix2 p j) := by
  unfold sqInc
  refine Finset.sum_congr rfl fun j _ => ?_
  rw [sqRows_lo x0 x1 p r hr j]

/-- a row of the second block likewise. -/
theorem sqInc_hi (x0 x1 : Vec Ideal S256x4096 .f32) (p : Fin 256) (r : Fin 512) (hr : r.val = 256 + p.val) :
    sqInc x0 x1 r = ∑ j : Fin 4096, x1 (ix2 p j) * x1 (ix2 p j) := by
  unfold sqInc
  refine Finset.sum_congr rfl fun j _ => ?_
  rw [sqRows_hi x0 x1 p r hr j]

/-! ## The two half stores of the 512-row block -/

theorem hz2 : (![0, 0] : Fin 2 → Nat) = fun _ => 0 := funext fun a => match a with
  | ⟨0, _⟩ => rfl
  | ⟨1, _⟩ => rfl

theorem hz3 : (![0, 0, 0] : Fin 3 → Nat) = fun _ => 0 := funext fun a => match a with
  | ⟨0, _⟩ => rfl
  | ⟨1, _⟩ => rfl
  | ⟨2, _⟩ => rfl

section Halves

variable (inbHi : ∀ a, (![0, 256, 0] : Fin 3 → Nat) a + S1x256x128.size a ≤ S1x512x128.size a)
  (inbLo : ∀ a, (![0, 0, 0] : Fin 3 → Nat) a + S1x256x128.size a ≤ S1x512x128.size a)

/-- Row `p` of the lower half sits at row `p` of the block; -/
theorem emb_lo (p : Fin 256) (r : Fin 512) (hr : r.val = p.val) (l : Fin 128) :
    (Rect.unit (s := S1x512x128) ![0, 0, 0] S1x256x128.size inbLo).emb (ix3 (0 : Fin 1) p l) = ix3 (0 : Fin 1) r l :=
  funext fun a => Fin.ext <| match a with
    | ⟨0, _⟩ => rfl
    | ⟨1, _⟩ => by show 0 + 1 * p.val = r.val; omega
    | ⟨2, _⟩ => by show 0 + 1 * l.val = l.val; omega

/-- row `p` of the upper half at row `256 + p`. -/
theorem emb_hi (p : Fin 256) (r : Fin 512) (hr : r.val = 256 + p.val) (l : Fin 128) :
    (Rect.unit (s := S1x512x128) ![0, 256, 0] S1x256x128.size inbHi).emb (ix3 (0 : Fin 1) p l) = ix3 (0 : Fin 1) r l :=
  funext fun a => Fin.ext <| match a with
    | ⟨0, _⟩ => rfl
    | ⟨1, _⟩ => by show 256 + 1 * p.val = r.val; omega
    | ⟨2, _⟩ => by show 0 + 1 * l.val = l.val; omega

/-- A row below 256 is outside the upper half. -/
theorem not_mem_hi (r : Fin 512) (hr : r.val < 256) (l : Fin 128) :
    ix3 (0 : Fin 1) r l ∉ (Rect.unit (s := S1x512x128) ![0, 256, 0] S1x256x128.size inbHi).set := by
  rw [Rect.mem_set_unit]
  intro h
  have h1 := (h (1 : Fin 3)).1
  change 256 ≤ r.val at h1
  omega

variable {inbHi inbLo}

/-- The upper half stored last, the lower half before it, over whatever was stored earlier: a row below 256 reads the
    lower half's payload; -/
theorem canon_halves_lo (wHi : (Rect.unit (s := S1x512x128) ![0, 256, 0] S1x256x128.size inbHi).shape.Idx → Elt Ideal .f32)
    (wLo : (Rect.unit (s := S1x512x128) ![0, 0, 0] S1x256x128.size inbLo).shape.Idx → Elt Ideal .f32)
    (L : List (View.Piece (Elt Ideal) S1x512x128 .f32)) (p : Fin 256) (r : Fin 512) (hr : r.val = p.val) (l : Fin 128) :
    View.canon ((⟨Rect.unit (s := S1x512x128) ![0, 256, 0] S1x256x128.size inbHi, wHi⟩ : View.Piece (Elt Ideal) S1x512x128 .f32)
        :: ⟨Rect.unit (s := S1x512x128) ![0, 0, 0] S1x256x128.size inbLo, wLo⟩ :: L) (ix3 (0 : Fin 1) r l)
      = wLo (ix3 (0 : Fin 1) p l) := by
  have hlt : r.val < 256 := by omega
  refine (View.canon_cons_of_not_mem (Val := Elt Ideal)
    (⟨Rect.unit (s := S1x512x128) ![0, 256, 0] S1x256x128.size inbHi, wHi⟩ : View.Piece (Elt Ideal) S1x512x128 .f32)
    (⟨Rect.unit (s := S1x512x128) ![0, 0, 0] S1x256x128.size inbLo, wLo⟩ :: L) (not_mem_hi inbHi r hlt l)).trans ?_
  exact (congrArg (View.canon _) (emb_lo inbLo p r hr l).symm).trans (View.canon_cons_emb _ wLo L _)

/-- a row from 256 on reads the upper half's. -/
theorem canon_halves_hi (wHi : (Rect.unit (s := S1x512x128) ![0, 256, 0] S1x256x128.size inbHi).shape.Idx → Elt Ideal .f32)
    (L : List (View.Piece (Elt Ideal) S1x512x128 .f32)) (p : Fin 256) (r : Fin 512) (hr : r.val = 256 + p.val) (l : Fin 128) :
    View.canon ((⟨Rect.unit (s := S1x512x128) ![0, 256, 0] S1x256x128.size inbHi, wHi⟩ : View.Piece (Elt Ideal) S1x512x128 .f32) :: L) (ix3 (0 : Fin 1) r l)
      = wHi (ix3 (0 : Fin 1) p l) := by
  exact (congrArg (View.canon _) (emb_hi inbHi p r hr l).symm).trans (View.canon_cons_emb _ wHi L _)

end Halves

/-! ## The zero block a resetting point stores first -/

/-- The reset's payload is the zero word at every index. -/
theorem pay6_apply (y : S1x512x128.Idx) : k0_pay6 (F := Ideal) y = 0 := by
  unfold k0_pay6
  exact Ideal.ofBits_zero_f32

/-- So the block holding only the reset reads zero. -/
theorem canon_zero_sq (inbW : ∀ a, (![0, 0, 0] : Fin 3 → Nat) a + S1x512x128.size a ≤ S1x512x128.size a) (y : S1x512x128.Idx) :
    View.canon [(⟨Rect.unit (s := S1x512x128) ![0, 0, 0] S1x512x128.size inbW, k0_pay6 (F := Ideal)⟩ : View.Piece (Elt Ideal) S1x512x128 .f32)] y = 0 :=
  (congrFun (View.canon_unit_zero hz3 inbW _) y).trans (pay6_apply y)

/-- A row from 256 on is outside the lower half, -/
theorem not_mem_lo (inbLo : ∀ a, (![0, 0, 0] : Fin 3 → Nat) a + S1x256x128.size a ≤ S1x512x128.size a) (r : Fin 512) (hr : 256 ≤ r.val) (l : Fin 128) :
    ix3 (0 : Fin 1) r l ∉ (Rect.unit (s := S1x512x128) ![0, 0, 0] S1x256x128.size inbLo).set := by
  rw [Rect.mem_set_unit]
  intro h
  have h1 := (h (1 : Fin 3)).2
  change r.val < 0 + 256 at h1
  omega

/-- so a store to the lower half leaves it as it was. -/
theorem canon_skip_lo {inbLo : ∀ a, (![0, 0, 0] : Fin 3 → Nat) a + S1x256x128.size a ≤ S1x512x128.size a}
    (wLo : (Rect.unit (s := S1x512x128) ![0, 0, 0] S1x256x128.size inbLo).shape.Idx → Elt Ideal .f32)
    (L : List (View.Piece (Elt Ideal) S1x512x128 .f32)) (r : Fin 512) (hr : 256 ≤ r.val) (l : Fin 128) :
    View.canon ((⟨Rect.unit (s := S1x512x128) ![0, 0, 0] S1x256x128.size inbLo, wLo⟩ : View.Piece (Elt Ideal) S1x512x128 .f32) :: L) (ix3 (0 : Fin 1) r l)
      = View.canon L (ix3 (0 : Fin 1) r l) :=
  View.canon_cons_of_not_mem (Val := Elt Ideal)
    (⟨Rect.unit (s := S1x512x128) ![0, 0, 0] S1x256x128.size inbLo, wLo⟩ : View.Piece (Elt Ideal) S1x512x128 .f32) L (not_mem_lo inbLo r hr l)

theorem outB3_apply (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : ¬cond0_0 i)
    (x0 x1 : Vec Ideal S256x4096 .f32) (xo2 : Vec Ideal S1x512x512 .f32) (xo3 : Vec Ideal S1x512x128 .f32) (r : Fin 512) (l : Fin 128) :
    out0_B_3 (F := Ideal) c i arg2 harg2 arg3 harg3 arg4 harg4 arg5 harg5 hc0 x0 x1 xo2 xo3 (ix3 (0 : Fin 1) r l) = xo3 (ix3 (0 : Fin 1) r l) + sqInc x0 x1 r := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rcases Nat.lt_or_ge r.val 256 with hr | hr
  · refine (canon_halves_lo _ _ [] ⟨r.val, hr⟩ r rfl l).trans ?_
    refine (pay9_apply _ _ ⟨r.val, hr⟩ l).trans ?_
    rw [View.readAt_eq_ld, View.readAt_eq_ld, harg2.read_unread, harg5.read_unread, View.ld_unit_zero (S := S256x4096) hz2]
    refine congrArg₂ (· + ·) ?_ (sqInc_lo x0 x1 ⟨r.val, hr⟩ r rfl).symm
    exact congrArg xo3 (emb_lo _ _ r rfl l)
  · have hp : r.val - 256 < 256 := by have := r.isLt; omega
    have hr' : r.val = 256 + (⟨r.val - 256, hp⟩ : Fin 256).val := by show r.val = 256 + (r.val - 256); omega
    refine (canon_halves_hi _ _ ⟨r.val - 256, hp⟩ r hr' l).trans ?_
    refine (pay10_apply _ _ ⟨r.val - 256, hp⟩ l).trans ?_
    rw [View.readAt_eq_ld, View.readAt_eq_ld, harg3.read_unread, harg5.read_unread, View.ld_unit_zero (S := S256x4096) hz2]
    refine congrArg₂ (· + ·) ?_ (sqInc_hi x0 x1 ⟨r.val - 256, hp⟩ r hr').symm
    exact congrArg xo3 (emb_hi _ _ r hr' l)

theorem outA3_apply (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x512x512 .f32) (harg4 : arg4.IsWhole) (arg5 : Memref sig .tc .vmem S1x512x128 .f32) (harg5 : arg5.IsWhole) (hc0 : cond0_0 i)
    (x0 x1 : Vec Ideal S256x4096 .f32) (r : Fin 512) (l : Fin 128) :
    out0_A_3 (F := Ideal) c i arg2 harg2 arg3 harg3 arg4 harg4 arg5 harg5 hc0 x0 x1 (ix3 (0 : Fin 1) r l) = sqInc x0 x1 r := by
  unfold out0_A_3
  rw [View.read_writes_eq_canon _ _ _ (cover0_A_3 c i arg2 harg2 arg3 harg3 arg4 harg4 arg5 harg5 hc0 x0 x1)]
  unfold kernelRun0_A
  dsimp only
  sl_unfold_words
  rcases Nat.lt_or_ge r.val 256 with hr | hr
  · refine (canon_halves_lo _ _ _ ⟨r.val, hr⟩ r rfl l).trans ?_
    refine (pay9_apply _ _ ⟨r.val, hr⟩ l).trans ?_
    refine (congrArg₂ (· + ·) ?_ ?_).trans (zero_add _)
    · refine (congrFun (View.readCov_eq_canon' _ _ _) _).trans ?_
      exact canon_zero_sq _ _
    · rw [View.readAt_eq_ld, harg2.read_unread, View.ld_unit_zero (S := S256x4096) hz2]
      exact (sqInc_lo x0 x1 ⟨r.val, hr⟩ r rfl).symm
  · have hp : r.val - 256 < 256 := by have := r.isLt; omega
    have hr' : r.val = 256 + (⟨r.val - 256, hp⟩ : Fin 256).val := by show r.val = 256 + (r.val - 256); omega
    refine (canon_halves_hi _ _ ⟨r.val - 256, hp⟩ r hr' l).trans ?_
    refine (pay10_apply _ _ ⟨r.val - 256, hp⟩ l).trans ?_
    refine (congrArg₂ (· + ·) ?_ ?_).trans (zero_add _)
    · refine (congrFun (View.readCov_eq_canon' _ _ _) _).trans ?_
      refine (congrArg (View.canon _) (emb_hi _ ⟨r.val - 256, hp⟩ r hr' l)).trans ?_
      refine (canon_skip_lo _ _ r hr l).trans ?_
      exact canon_zero_sq _ _
    · rw [View.readAt_eq_ld, harg3.read_unread, View.ld_unit_zero (S := S256x4096) hz2]
      exact (sqInc_hi x0 x1 ⟨r.val - 256, hp⟩ r hr').symm

end Cert.KernelIdeal.Val

end
-- ==== Proof.KI.Final.lean ====
/-
  What the region's two result arrays hold after the run. Each is cut along its leading axis into two blocks, one per
  half of the grid; a block's staging buffer is written back once, after the last of its half's eight points, and the
  two blocks tile the array. So entry (h, r, s) of a result array is entry (0, r, s) of what point 8 h + 7 left in the
  staging buffer.
-/
import proofs.«400202_j48155173323219_3_alg».proof.Proof.KI.Frame
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of half `h`. -/
theorem last_lt (h : Fin 2) : 8 * h.val + 7 < cfg0.N := by
  rw [show cfg0.N = 16 from N_0]; have := h.isLt; omega

/-! ## The staging buffers' contents depend on the point's number only -/

/-- Two spellings of one point's number give one pair of staging buffers. -/
theorem outsAt0_congr (c : Dev nD) {n n' : ℕ} (h : n = n') (hn : n < cfg0.N) (hn' : n' < cfg0.N) :
    outsAt0 m c n hn = outsAt0 m c n' hn' := by subst h; rfl

/-- A point that ends its half is the last point `8 h + 7` of the half `h = t / 8`. -/
theorem last_of_half (t : Fin cfg0.N) (h7 : t.val % 8 = 7) (h : Fin 2) (hh : h.val = t.val / 8) :
    8 * h.val + 7 = t.val := by omega

/-! ## The partial Gram array: blocks `[1, 512, 512]` of `[2, 512, 512]`, one per half -/

/-- The index map of the Gram window over the grid: the half on the leading axis, zero on the two others. -/
theorem gram_index : ∀ t : Fin cfg0.N, win0_2.index t (0 : Fin 3) = t.val / 8
    ∧ win0_2.index t (1 : Fin 3) = 0 ∧ win0_2.index t (2 : Fin 3) = 0 :=
  (by decide +kernel : ∀ t : Fin grid0.N, _)

/-- The Gram array as the run leaves it: plane `h` is the staging buffer after the last point of half `h`. -/
abbrev gramArr (c : Dev nD) : S2x512x512.Idx → Elt F .f32 := fun y =>
  (outsAt0 m c (8 * (y 0).val + 7) (last_lt (y 0))).1 (ix3 (0 : Fin 1) (y 1) (y 2))

/-- At an array index whose plane is the half of a half-ending point `t`, `gramArr` reads the buffer after `t`. -/
theorem gramArr_at (c : Dev nD) (t : Fin cfg0.N) (h7 : t.val % 8 = 7) (y : S2x512x512.Idx) (hy : (y 0).val = t.val / 8) :
    gramArr m c y = (outsAt0 m c t.val t.isLt).1 (ix3 (0 : Fin 1) (y 1) (y 2)) := by
  show (outsAt0 m c (8 * (y 0).val + 7) (last_lt (y 0))).1 _ = _
  rw [outsAt0_congr m c (last_of_half t h7 (y 0) hy) (last_lt (y 0)) t.isLt]

/-- What a half-ending point writes back is its block of `gramArr`: the block's element `(0, r, s)` sits in the array at
    `(t / 8, r, s)`, and there `gramArr` reads the buffer after `t` at `(0, r, s)`. -/
theorem gram_flushed (c : Dev nD) (t : Fin cfg0.N) (hf : (cfg0.win 2).flush t = true) :
    (dats m 0 c).flushed 2 t = ((cfg0.win 2).blk t).view.read (Elt F) (gramArr m c) := by
  have h7 : t.val % 8 = 7 := (flush0_2 t).mp hf
  obtain ⟨e0, e1, e2⟩ := gram_index t
  show (cfg0.win 2).cut (grid0.coords t) ((dats m 0 c).after 2 t) = _
  rw [after0_2]
  funext j
  rw [View.read_apply]
  show (outsAt0 m c t.val t.isLt).1 ((cfg0.win 2).xinj (grid0.coords t) j) = gramArr m c (((cfg0.win 2).blk t).view.emb j)
  have hj0 : (j 0).val < 1 := (j 0).isLt
  have hy : ((((cfg0.win 2).blk t).view.emb j) 0).val = t.val / 8 := by
    show win0_2.index t (0 : Fin 3) * 1 + 1 * (j 0).val = t.val / 8
    omega
  rw [gramArr_at m c t h7 _ hy]
  refine congrArg (outsAt0 m c t.val t.isLt).1 ?_
  funext a
  apply Fin.ext
  match a with
  | ⟨0, _⟩ => show (j 0).val = 0; omega
  | ⟨1, _⟩ => show (j 1).val = win0_2.index t (1 : Fin 3) * 512 + 1 * (j 1).val; omega
  | ⟨2, _⟩ => show (j 2).val = win0_2.index t (2 : Fin 3) * 512 + 1 * (j 2).val; omega

/-- An array index is in point `t`'s block iff each coordinate is in the block's range on its axis. -/
theorem gram_mem_blk (t : Fin cfg0.N) (y : S2x512x512.Idx) :
    y ∈ ((cfg0.win 2).blk t).view.set ↔ ∀ a : Fin 3, win0_2.index t a * S1x512x512.size a ≤ (y a).val
      ∧ (y a).val < win0_2.index t a * S1x512x512.size a + S1x512x512.size a := by
  show y ∈ ((View.whole main_v2_0).slice (win0_2.rect t)).set ↔ _
  rw [View.set_slice_whole, Rect.mem_set_unit]
  exact Iff.rfl

/-- Plane `h` of the array lies in the block of the last point of half `h`, which is written back. -/
theorem gram_cover (y : S2x512x512.Idx) :
    ∃ t : Fin cfg0.N, (cfg0.win 2).flush t = true ∧ y ∈ ((cfg0.win 2).blk t).view.set := by
  have h0 : (y 0).val < 2 := (y 0).isLt
  have h1 : (y 1).val < 512 := (y 1).isLt
  have h2 : (y 2).val < 512 := (y 2).isLt
  refine ⟨⟨8 * (y 0).val + 7, last_lt (y 0)⟩, (flush0_2 _).mpr (by show (8 * (y 0).val + 7) % 8 = 7; omega), ?_⟩
  obtain ⟨e0, e1, e2⟩ := gram_index ⟨8 * (y 0).val + 7, last_lt (y 0)⟩
  have e0' : win0_2.index ⟨8 * (y 0).val + 7, last_lt (y 0)⟩ (0 : Fin 3) = (y 0).val := by
    rw [e0]; show (8 * (y 0).val + 7) / 8 = (y 0).val; omega
  rw [gram_mem_blk]
  intro a
  match a with
  | ⟨0, _⟩ =>
    show win0_2.index _ (0 : Fin 3) * 1 ≤ (y 0).val ∧ (y 0).val < win0_2.index _ (0 : Fin 3) * 1 + 1
    omega
  | ⟨1, _⟩ =>
    show win0_2.index _ (1 : Fin 3) * 512 ≤ (y 1).val ∧ (y 1).val < win0_2.index _ (1 : Fin 3) * 512 + 512
    omega
  | ⟨2, _⟩ =>
    show win0_2.index _ (2 : Fin 3) * 512 ≤ (y 2).val ∧ (y 2).val < win0_2.index _ (2 : Fin 3) * 512 + 512
    omega

/-- The partial Gram array after the run: block `h` is what the last point of half `h` left in the staging buffer. -/
theorem final2 (c : Dev nD) :
    (dats m 0 c).arrAt 2 cfg0.N = fun y : S2x512x512.Idx =>
      (outsAt0 m c (8 * (y 0).val + 7) (last_lt (y 0))).1 (ix3 (0 : Fin 1) (y 1) (y 2)) :=
  (dats m 0 c).arrAt_eq_of_cover 2 (gramArr m c) (gram_flushed m c) gram_cover

/-! ## The partial squared-norm array: blocks `[1, 512, 128]` of `[2, 512, 128]`, one per half -/

/-- The index map of the squared-norm window over the grid: again the half, then zeros. -/
theorem sq_index : ∀ t : Fin cfg0.N, win0_3.index t (0 : Fin 3) = t.val / 8
    ∧ win0_3.index t (1 : Fin 3) = 0 ∧ win0_3.index t (2 : Fin 3) = 0 :=
  (by decide +kernel : ∀ t : Fin grid0.N, _)

/-- The squared-norm array as the run leaves it: plane `h` is its staging buffer after the last point of half `h`. -/
abbrev sqArr (c : Dev nD) : S2x512x128.Idx → Elt F .f32 := fun y =>
  (outsAt0 m c (8 * (y 0).val + 7) (last_lt (y 0))).2 (ix3 (0 : Fin 1) (y 1) (y 2))

theorem sqArr_at (c : Dev nD) (t : Fin cfg0.N) (h7 : t.val % 8 = 7) (y : S2x512x128.Idx) (hy : (y 0).val = t.val / 8) :
    sqArr m c y = (outsAt0 m c t.val t.isLt).2 (ix3 (0 : Fin 1) (y 1) (y 2)) := by
  show (outsAt0 m c (8 * (y 0).val + 7) (last_lt (y 0))).2 _ = _
  rw [outsAt0_congr m c (last_of_half t h7 (y 0) hy) (last_lt (y 0)) t.isLt]

/-- What a half-ending point writes back is its block of `sqArr`. -/
theorem sq_flushed (c : Dev nD) (t : Fin cfg0.N) (hf : (cfg0.win 3).flush t = true) :
    (dats m 0 c).flushed 3 t = ((cfg0.win 3).blk t).view.read (Elt F) (sqArr m c) := by
  have h7 : t.val % 8 = 7 := (flush0_3 t).mp hf
  obtain ⟨e0, e1, e2⟩ := sq_index t
  show (cfg0.win 3).cut (grid0.coords t) ((dats m 0 c).after 3 t) = _
  rw [after0_3]
  funext j
  rw [View.read_apply]
  show (outsAt0 m c t.val t.isLt).2 ((cfg0.win 3).xinj (grid0.coords t) j) = sqArr m c (((cfg0.win 3).blk t).view.emb j)
  have hj0 : (j 0).val < 1 := (j 0).isLt
  have hy : ((((cfg0.win 3).blk t).view.emb j) 0).val = t.val / 8 := by
    show win0_3.index t (0 : Fin 3) * 1 + 1 * (j 0).val = t.val / 8
    omega
  rw [sqArr_at m c t h7 _ hy]
  refine congrArg (outsAt0 m c t.val t.isLt).2 ?_
  funext a
  apply Fin.ext
  match a with
  | ⟨0, _⟩ => show (j 0).val = 0; omega
  | ⟨1, _⟩ => show (j 1).val = win0_3.index t (1 : Fin 3) * 512 + 1 * (j 1).val; omega
  | ⟨2, _⟩ => show (j 2).val = win0_3.index t (2 : Fin 3) * 128 + 1 * (j 2).val; omega

theorem sq_mem_blk (t : Fin cfg0.N) (y : S2x512x128.Idx) :
    y ∈ ((cfg0.win 3).blk t).view.set ↔ ∀ a : Fin 3, win0_3.index t a * S1x512x128.size a ≤ (y a).val
      ∧ (y a).val < win0_3.index t a * S1x512x128.size a + S1x512x128.size a := by
  show y ∈ ((View.whole main_v2_1).slice (win0_3.rect t)).set ↔ _
  rw [View.set_slice_whole, Rect.mem_set_unit]
  exact Iff.rfl

/-- Plane `h` of the array lies in the block of the last point of half `h`, which is written back. -/
theorem sq_cover (y : S2x512x128.Idx) :
    ∃ t : Fin cfg0.N, (cfg0.win 3).flush t = true ∧ y ∈ ((cfg0.win 3).blk t).view.set := by
  have h0 : (y 0).val < 2 := (y 0).isLt
  have h1 : (y 1).val < 512 := (y 1).isLt
  have h2 : (y 2).val < 128 := (y 2).isLt
  refine ⟨⟨8 * (y 0).val + 7, last_lt (y 0)⟩, (flush0_3 _).mpr (by show (8 * (y 0).val + 7) % 8 = 7; omega), ?_⟩
  obtain ⟨e0, e1, e2⟩ := sq_index ⟨8 * (y 0).val + 7, last_lt (y 0)⟩
  have e0' : win0_3.index ⟨8 * (y 0).val + 7, last_lt (y 0)⟩ (0 : Fin 3) = (y 0).val := by
    rw [e0]; show (8 * (y 0).val + 7) / 8 = (y 0).val; omega
  rw [sq_mem_blk]
  intro a
  match a with
  | ⟨0, _⟩ =>
    show win0_3.index _ (0 : Fin 3) * 1 ≤ (y 0).val ∧ (y 0).val < win0_3.index _ (0 : Fin 3) * 1 + 1
    omega
  | ⟨1, _⟩ =>
    show win0_3.index _ (1 : Fin 3) * 512 ≤ (y 1).val ∧ (y 1).val < win0_3.index _ (1 : Fin 3) * 512 + 512
    omega
  | ⟨2, _⟩ =>
    show win0_3.index _ (2 : Fin 3) * 128 ≤ (y 2).val ∧ (y 2).val < win0_3.index _ (2 : Fin 3) * 128 + 128
    omega

/-- The partial squared-norm array after the run, likewise. -/
theorem final3 (c : Dev nD) :
    (dats m 0 c).arrAt 3 cfg0.N = fun y : S2x512x128.Idx =>
      (outsAt0 m c (8 * (y 0).val + 7) (last_lt (y 0))).2 (ix3 (0 : Fin 1) (y 1) (y 2)) :=
  (dats m 0 c).arrAt_eq_of_cover 3 (sqArr m c) (sq_flushed m c) sq_cover

end Cert.KernelIdeal.Fr

end
-- ==== Proof.KI.Tail.lean ====
/-
  The kernel program's host side around its one region, as values.

  Before the region @main reshapes each 256 x 256 x 16 x 16 argument to 256 x 65536: those two reshaped arrays are what
  the region's input windows read. After the region @main sums the two per-half partial Gram blocks over the half axis,
  sums the two per-half partial squared-norm blocks over the half axis and reads the sum at lane 0, and then applies to
  these two quantities exactly the operations of `Cert.Spec.tail`, in the same order and on the same literals. So the
  program's result is `tail (sqOf s) (gramOf g)`, where `g` and `s` are what the region leaves in its two output arrays.
  The later operations are never opened beyond reading each one's result off the operation that produced it.
-/
import proofs.«400202_j48155173323219_3_alg».proof.Proof.KI.Base
import proofs.«400202_j48155173323219_3_alg».proof.Proof.Spec
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds in its two input arrays -/

/-- What the region finds in its two input arrays: the arguments reshaped to 256 x 65536. -/
theorem V_main_v0 (c : Dev nD) : V m c main_v0 = shapeCast S256x65536 (m ((c : Thread nD τ).loc main_arg0)) shapeCasts_S256x256x16x16_S256x65536 := by
  dsimp only [V, V0]
  simp only [hostOps0, List.flatten_cons, List.flatten_nil, List.append_nil]
  after_results
  rfl
theorem V_main_v1 (c : Dev nD) : V m c main_v1 = shapeCast S256x65536 (m ((c : Thread nD τ).loc main_arg1)) shapeCasts_S256x256x16x16_S256x65536 := by
  dsimp only [V, V0]
  simp only [hostOps0, List.flatten_cons, List.flatten_nil, List.append_nil]
  after_results
  rfl

/-! ## The operations after the region, over any contents of the buffers -/

set_option maxHeartbeats 4000000 in
/-- Whatever the buffers hold when the later operations start, they leave in @main's result the shared tail of: the sum
    over the half axis of the second output array read at lane 0, and the sum over the half axis of the first. Every
    operation writes its own result buffer only and reads buffers written before it, so the result is the operations'
    functions composed along the references, which is `Cert.Spec.tail` literally. -/
theorem tail_after (W : Valuation τ sig (Elt F)) :
    StableHlo.after (List.flatten (tailOps (F := F))) W (Proc.devRef .tc main_v59)
      = Cert.Spec.tail (Cert.Spec.sqOf (W (Proc.devRef .tc main_v2_1))) (Cert.Spec.gramOf (W (Proc.devRef .tc main_v2_0))) := by
  simp only [tailOps, hostOps1, hostOps1_1, hostOps1_2, List.flatten_cons, List.flatten_nil, List.append_nil, List.cons_append,
    List.nil_append]
  after_results_simp
  rfl

/-! ## The program's result -/

/-- What the later host operations leave in @main's result: the shared tail of the summed partial blocks. -/
theorem tail_v59 (dats : (p : Fin 1) → (c : Dev nD) → Dat τ (Elt F) Unit ℕ (UR sig nD τ) ℕ (cfgs p) c) (c : Dev nD) :
    Pipeline.afterTail₀ cfgs dats 0 (V0 m) tailOps c main_v59
      = Cert.Spec.tail (Cert.Spec.sqOf ((dats 0 c).arrAt 3 cfg0.N)) (Cert.Spec.gramOf ((dats 0 c).arrAt 2 cfg0.N)) := by
  unfold Pipeline.afterTail₀
  -- the later operations start from the buffers as the region leaves them: its four arrays at their final contents
  refine (tail_after _).trans ?_
  -- the first output array is the region's third array, the second its fourth
  have e2 := Pipeline.withArrays_arr spec0 launch0.win.arr_inj c (V0 m c) (fun w => (dats 0 c).arrAt w cfg0.N) 2
  have e3 := Pipeline.withArrays_arr spec0 launch0.win.arr_inj c (V0 m c) (fun w => (dats 0 c).arrAt w cfg0.N) 3
  exact congrArg₂ Cert.Spec.tail (congrArg Cert.Spec.sqOf e3) (congrArg Cert.Spec.gramOf e2)

end Cert.KernelIdeal.Fr

end
-- ==== Proof.SumLaw.lean ====
import Mathlib.Algebra.BigOperators.Fin
import Mathlib.Algebra.BigOperators.Group.Finset.Basic
import Mathlib.Data.Fintype.BigOperators

/-!
# Regrouping a long sum into chunks

A sum over 65536 indices, taken in sixteen consecutive chunks of 4096, and the sixteen
chunk-sums taken in two halves of eight (each half accumulated chunk by chunk), is the one
sum over all indices. Everything here holds in any commutative additive monoid.
-/

namespace Cert.SumLaw
open Finset

/-- Column j of chunk t: the sixteen chunks of 4096 columns tile the 65536 columns in order. -/
def col (t : Fin 16) (j : Fin 4096) : Fin 65536 := ⟨4096 * t.val + j.val, by have := t.isLt; have := j.isLt; omega⟩

/-- Division with remainder by 4096 is the inverse of `col`: the pair (chunk, column in the
chunk) and the column number determine one another. -/
def colEquiv : Fin 16 × Fin 4096 ≃ Fin 65536 where
  toFun p := col p.1 p.2
  invFun k := (⟨k.val / 4096, by have := k.isLt; omega⟩, ⟨k.val % 4096, by omega⟩)
  left_inv := by
    rintro ⟨t, j⟩
    have ht := t.isLt
    have hj := j.isLt
    refine Prod.ext (Fin.ext ?_) (Fin.ext ?_)
    · show (4096 * t.val + j.val) / 4096 = t.val
      omega
    · show (4096 * t.val + j.val) % 4096 = j.val
      omega
  right_inv := by
    intro k
    refine Fin.ext ?_
    show 4096 * (k.val / 4096) + k.val % 4096 = k.val
    omega

theorem sum_chunks {M : Type} [AddCommMonoid M] (f : Fin 65536 → M) :
    ∑ t : Fin 16, ∑ j : Fin 4096, f (col t j) = ∑ k : Fin 65536, f k := by
  -- the double sum is a sum over pairs, and pairs correspond to columns one to one
  rw [← Fintype.sum_prod_type' (fun t j => f (col t j))]
  exact Fintype.sum_equiv colEquiv (fun p => f (col p.1 p.2)) f (fun _ => rfl)

/-- The chunks of chunk n's half, up to and including n. -/
def upTo (n : ℕ) : Finset (Fin 16) := Finset.univ.filter fun t => t.val / 8 = n / 8 ∧ t.val ≤ n

theorem upTo_first (n : ℕ) (hn : n < 16) (h : n % 8 = 0) : upTo n = {⟨n, hn⟩} := by
  -- n opens its half, so the only chunk of that half not after n is n itself
  ext t
  simp only [upTo, Finset.mem_filter, Finset.mem_univ, true_and, Finset.mem_singleton,
    Fin.ext_iff]
  omega

theorem upTo_succ (n : ℕ) (hn : n < 16) (h : ¬n % 8 = 0) : upTo n = insert ⟨n, hn⟩ (upTo (n - 1)) := by
  -- n - 1 lies in the same half as n, so "up to n" is "n, or up to n - 1"
  ext t
  simp only [upTo, Finset.mem_filter, Finset.mem_univ, true_and, Finset.mem_insert,
    Fin.ext_iff]
  omega

theorem not_mem_upTo_pred (n : ℕ) (hn : n < 16) (h : ¬n % 8 = 0) : (⟨n, hn⟩ : Fin 16) ∉ upTo (n - 1) := by
  simp only [upTo, Finset.mem_filter, Finset.mem_univ, true_and]
  omega

/-- Up to its last chunk 7, the first half is the chunks below 8. -/
theorem upTo_seven : upTo 7 = Finset.univ.filter fun t : Fin 16 => t.val < 8 := by
  ext t
  simp only [upTo, Finset.mem_filter, Finset.mem_univ, true_and]
  omega

/-- Up to its last chunk 15, the second half is the chunks not below 8. -/
theorem upTo_fifteen : upTo 15 = Finset.univ.filter fun t : Fin 16 => ¬t.val < 8 := by
  ext t
  have := t.isLt
  simp only [upTo, Finset.mem_filter, Finset.mem_univ, true_and]
  omega

theorem sum_halves {M : Type} [AddCommMonoid M] (g : Fin 16 → M) :
    ∑ h : Fin 2, ∑ t ∈ upTo (8 * h.val + 7), g t = ∑ t : Fin 16, g t := by
  -- the two halves are the chunks below 8 and the rest: complementary parts of all sixteen
  rw [Fin.sum_univ_two]
  have e0 : 8 * (0 : Fin 2).val + 7 = 7 := rfl
  have e1 : 8 * (1 : Fin 2).val + 7 = 15 := rfl
  rw [e0, e1, upTo_seven, upTo_fifteen]
  exact Finset.sum_filter_add_sum_filter_not Finset.univ (fun t : Fin 16 => t.val < 8) g

end Cert.SumLaw
-- ==== Proof.KI.Value.lean ====
/-
  The kernel's two quantities at the exact instance.

  Write R r k for row r (of the 512 stacked rows) of the two reshaped arguments at column k (of 65536). Grid point t
  (of 16; half t / 8, step t % 8) sees columns 4096 t … 4096 t + 4095, and adds to the partial Gram block of its half
  G t r s = ∑ j, R r (4096 t + j) * R s (4096 t + j) and to the partial squared-norm block Q t r = ∑ j, R r (4096 t + j)².
  By induction on the point, the staging buffers after point n hold the sums of G t (resp. Q t) over the points t of n's
  half up to n: a resetting point starts the sum (the reset stores zero, and 0 + x = x), an accumulating point extends it.
  After the run block h of each result array is what point 8 h + 7 left: the sum over the whole half. The host then adds
  the two halves (from zero), so the Gram matrix is ∑ over all sixteen points of G t r s — the one sum ∑ k, R r k * R s k
  regrouped into chunks, since addition of extended reals is commutative and associative — and likewise the squared norms
  (read at lane 0 of 128 equal lanes).
-/
import proofs.«400202_j48155173323219_3_alg».proof.Proof.KI.ValGram
import proofs.«400202_j48155173323219_3_alg».proof.Proof.KI.ValSq
import proofs.«400202_j48155173323219_3_alg».proof.Proof.KI.Final
import proofs.«400202_j48155173323219_3_alg».proof.Proof.KI.Tail
import proofs.«400202_j48155173323219_3_alg».proof.Proof.SumLaw
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx (ix1 ix2 ix3)

open Cert.SumLaw

variable (m : (ℓ : Loc nD τ sig) → Buf (Elt Ideal) ℓ) (ρ : Dev nD → PrngReg)

/-- A grid point as one of the sixteen chunks. -/
abbrev pt (t : Fin cfg0.N) : Fin 16 := ⟨t.val, lt_of_lt_of_eq t.isLt N_0⟩

/-- The two arrays the region reads: the arguments reshaped to 256 x 65536. -/
abbrev X0 (c : Dev nD) : Vec Ideal S256x65536 .f32 := V m c main_v0
abbrev X1 (c : Dev nD) : Vec Ideal S256x65536 .f32 := V m c main_v1

/-- Row `r` of the 512 stacked rows at column `k`. -/
abbrev R (c : Dev nD) (r : Fin 512) (k : Fin 65536) : Elt Ideal .f32 :=
  Cert.Spec.stacked (fun p k => X0 m c (ix2 p k)) (fun p k => X1 m c (ix2 p k)) r k

/-- Chunk `t`'s contribution to the Gram entry of rows `r`, `s`, and to row `r`'s squared norm. -/
def G (c : Dev nD) (t : Fin 16) (r s : Fin 512) : Elt Ideal .f32 := ∑ j : Fin 4096, R m c r (col t j) * R m c s (col t j)
def Q (c : Dev nD) (t : Fin 16) (r : Fin 512) : Elt Ideal .f32 := ∑ j : Fin 4096, R m c r (col t j) * R m c r (col t j)

/-! ## A window's block is a chunk of columns -/

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val :=
  (by decide +kernel : ∀ t : Fin grid0.N, win0_1.index t 0 = 0 ∧ win0_1.index t 1 = t.val)

theorem iblk0_apply (c : Dev nD) (t : Fin cfg0.N) (p : Fin 256) (j : Fin 4096) :
    (iblk m c 0 t : Vec Ideal S256x4096 .f32) (ix2 p j) = X0 m c (ix2 p (col (pt t) j)) := by
  unfold iblk
  rw [View.read_apply]
  show V m c main_v0 _ = V m c main_v0 _
  congr 1
  funext a
  apply Fin.ext
  match a with
  | ⟨0, _⟩ => show win0_0.index t 0 * 256 + 1 * p.val = p.val; rw [(idx0 t).1]; omega
  | ⟨1, _⟩ => show win0_0.index t 1 * 4096 + 1 * j.val = 4096 * t.val + j.val; rw [(idx0 t).2]; omega

theorem iblk1_apply (c : Dev nD) (t : Fin cfg0.N) (p : Fin 256) (j : Fin 4096) :
    (iblk m c 1 t : Vec Ideal S256x4096 .f32) (ix2 p j) = X1 m c (ix2 p (col (pt t) j)) := by
  unfold iblk
  rw [View.read_apply]
  show V m c main_v1 _ = V m c main_v1 _
  congr 1
  funext a
  apply Fin.ext
  match a with
  | ⟨0, _⟩ => show win0_1.index t 0 * 256 + 1 * p.val = p.val; rw [(idx1 t).1]; omega
  | ⟨1, _⟩ => show win0_1.index t 1 * 4096 + 1 * j.val = 4096 * t.val + j.val; rw [(idx1 t).2]; omega

theorem blkRows_iblk (c : Dev nD) (t : Fin cfg0.N) (r : Fin 512) (j : Fin 4096) :
    blkRows (iblk m c 0 t) (iblk m c 1 t) r j = R m c r (col (pt t) j) := by
  by_cases h : r.val < 256
  · simp only [blkRows, R, Cert.Spec.stacked, dif_pos h]; exact iblk0_apply m c t _ j
  · simp only [blkRows, R, Cert.Spec.stacked, dif_neg h]; exact iblk1_apply m c t _ j

theorem gramInc_iblk (c : Dev nD) (t : Fin cfg0.N) (r s : Fin 512) :
    gramInc (iblk m c 0 t) (iblk m c 1 t) r s = G m c (pt t) r s := by
  unfold gramInc G
  exact Finset.sum_congr rfl fun j _ => by rw [blkRows_iblk, blkRows_iblk]

theorem sqInc_iblk (c : Dev nD) (t : Fin cfg0.N) (r : Fin 512) :
    sqInc (iblk m c 0 t) (iblk m c 1 t) r = Q m c (pt t) r := by
  unfold sqInc Q
  exact Finset.sum_congr rfl fun j _ => by rw [blkRows_iblk]

/-! ## The running sums, by induction on the point -/

theorem outs_eq (c : Dev nD) : ∀ (n : ℕ) (h : n < cfg0.N),
    (∀ r s : Fin 512, (outsAt0 m c n h).1 (ix3 (0 : Fin 1) r s) = ∑ t ∈ upTo n, G m c t r s)
    ∧ (∀ (r : Fin 512) (l : Fin 128), (outsAt0 m c n h).2 (ix3 (0 : Fin 1) r l) = ∑ t ∈ upTo n, Q m c t r)
  | 0, h => by
    have hN : (0 : ℕ) < 16 := by decide
    rw [outsAt0_A m c ⟨0, h⟩ rfl]
    refine ⟨fun r s => ?_, fun r l => ?_⟩
    · dsimp only
      rw [outA2_apply, gramInc_iblk, upTo_first 0 hN rfl, Finset.sum_singleton]
    · dsimp only
      rw [outA3_apply, sqInc_iblk, upTo_first 0 hN rfl, Finset.sum_singleton]
  | n + 1, h => by
    have hN : n + 1 < 16 := lt_of_lt_of_eq h N_0
    by_cases h0 : (n + 1) % 8 = 0
    · rw [outsAt0_A m c ⟨n + 1, h⟩ h0]
      refine ⟨fun r s => ?_, fun r l => ?_⟩
      · dsimp only
        rw [outA2_apply, gramInc_iblk, upTo_first (n + 1) hN h0, Finset.sum_singleton]
      · dsimp only
        rw [outA3_apply, sqInc_iblk, upTo_first (n + 1) hN h0, Finset.sum_singleton]
    · obtain ⟨ih2, ih3⟩ := outs_eq c n (Nat.lt_of_succ_lt h)
      rw [outsAt0_B m c ⟨n + 1, h⟩ h0]
      refine ⟨fun r s => ?_, fun r l => ?_⟩
      · dsimp only
        rw [outB2_apply, gramInc_iblk, upTo_succ (n + 1) hN h0, Finset.sum_insert (not_mem_upTo_pred (n + 1) hN h0), add_comm]
        exact congrArg (G m c ⟨n + 1, hN⟩ r s + ·) (ih2 r s)
      · dsimp only
        rw [outB3_apply, sqInc_iblk, upTo_succ (n + 1) hN h0, Finset.sum_insert (not_mem_upTo_pred (n + 1) hN h0), add_comm]
        exact congrArg (Q m c ⟨n + 1, hN⟩ r + ·) (ih3 r l)

/-! ## The result arrays, and the host's sums over the two halves -/

theorem A2_apply (c : Dev nD) (h : Fin 2) (r s : Fin 512) :
    ((dats m 0 c).arrAt 2 cfg0.N : Vec Ideal S2x512x512 .f32) (ix3 h r s) = ∑ t ∈ upTo (8 * h.val + 7), G m c t r s := by
  rw [final2]
  exact (outs_eq m c (8 * h.val + 7) (last_lt h)).1 r s

theorem A3_apply (c : Dev nD) (h : Fin 2) (r : Fin 512) (l : Fin 128) :
    ((dats m 0 c).arrAt 3 cfg0.N : Vec Ideal S2x512x128 .f32) (ix3 h r l) = ∑ t ∈ upTo (8 * h.val + 7), Q m c t r := by
  rw [final3]
  exact (outs_eq m c (8 * h.val + 7) (last_lt h)).2 r l

/-- The host's sum over the half axis of a [2, 512, n] array, from the zero word: the two halves added. -/
theorem halves2_apply (y : Vec Ideal S2x512x512 .f32) (r s : Fin 512) :
    Cert.Spec.gramOf (F := Ideal) y (ix2 r s) = ∑ h : Fin 2, y (ix3 h r s) := by
  unfold Cert.Spec.gramOf
  simp only [Host.reduceAdd, Ideal.hostReduceAdd_def]
  rw [Ideal.hostReduceAdd_single reducesTo_S2x512x512_S512x512_d0 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl))

theorem halves3_apply (y : Vec Ideal S2x512x128 .f32) (r : Fin 512) :
    Cert.Spec.sqOf (F := Ideal) y (ix1 r) = ∑ h : Fin 2, y (ix3 h r (0 : Fin 128)) := by
  unfold Cert.Spec.sqOf
  rw [shapeCast_apply _ shapeCasts_S512x1_S512 (ix1 r) (ix2 r (0 : Fin 1))
    (by rw [Shape.rowMajor_val_two, Shape.rowMajor_val_one]; show r.val * 1 + 0 = r.val; omega)]
  rw [extractStridedSlice_apply ![0, 0] _ slices_S512x128_S512x1_0_0 (ix2 r (0 : Fin 1)) (ix2 r (0 : Fin 128))
    (fun a => by match a with | ⟨0, _⟩ => show r.val = 0 + r.val; omega | ⟨1, _⟩ => rfl)]
  simp only [Host.reduceAdd, Ideal.hostReduceAdd_def]
  rw [Ideal.hostReduceAdd_single reducesTo_S2x512x128_S512x128_d0 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- The two result arrays after the run, at their literal types. -/
abbrev A2 (c : Dev nD) : Vec Ideal S2x512x512 .f32 := (dats m 0 c).arrAt 2 cfg0.N
abbrev A3 (c : Dev nD) : Vec Ideal S2x512x128 .f32 := (dats m 0 c).arrAt 3 cfg0.N

/-- The kernel's Gram matrix is the Gram matrix of the stacked rows. -/
theorem gramK_apply (c : Dev nD) (r s : Fin 512) :
    Cert.Spec.gramOf (F := Ideal) (A2 m c) (ix2 r s) = ∑ k : Fin 65536, R m c r k * R m c s k :=
  calc Cert.Spec.gramOf (F := Ideal) (A2 m c) (ix2 r s)
      = ∑ h : Fin 2, A2 m c (ix3 h r s) := halves2_apply (A2 m c) r s
    _ = ∑ h : Fin 2, ∑ t ∈ upTo (8 * h.val + 7), G m c t r s := Finset.sum_congr rfl fun h _ => A2_apply m c h r s
    _ = ∑ t : Fin 16, G m c t r s := sum_halves (fun t => G m c t r s)
    _ = ∑ k : Fin 65536, R m c r k * R m c s k := sum_chunks (fun k => R m c r k * R m c s k)

/-- The kernel's squared norms are the stacked rows' sums of squares. -/
theorem sqK_apply (c : Dev nD) (r : Fin 512) :
    Cert.Spec.sqOf (F := Ideal) (A3 m c) (ix1 r) = ∑ k : Fin 65536, R m c r k * R m c r k :=
  calc Cert.Spec.sqOf (F := Ideal) (A3 m c) (ix1 r)
      = ∑ h : Fin 2, A3 m c (ix3 h r (0 : Fin 128)) := halves3_apply (A3 m c) r
    _ = ∑ h : Fin 2, ∑ t ∈ upTo (8 * h.val + 7), Q m c t r := Finset.sum_congr rfl fun h _ => A3_apply m c h r 0
    _ = ∑ t : Fin 16, Q m c t r := sum_halves (fun t => Q m c t r)
    _ = ∑ k : Fin 65536, R m c r k * R m c r k := sum_chunks (fun k => R m c r k * R m c r k)

/-- The stacked rows, over the two arguments reshaped. -/
theorem R_eq (c : Dev nD) (r : Fin 512) (k : Fin 65536) : R m c r k
    = Cert.Spec.stacked
        (fun p k => (shapeCast S256x65536 (m ((c : Thread nD τ).loc main_arg0)) shapeCasts_S256x256x16x16_S256x65536 : Vec Ideal S256x65536 .f32) (ix2 p k))
        (fun p k => (shapeCast S256x65536 (m ((c : Thread nD τ).loc main_arg1)) shapeCasts_S256x256x16x16_S256x65536 : Vec Ideal S256x65536 .f32) (ix2 p k)) r k := by
  show Cert.Spec.stacked (fun p k => V m c main_v0 (ix2 p k)) (fun p k => V m c main_v1 (ix2 p k)) r k = _
  rw [V_main_v0, V_main_v1]

end Cert.KernelIdeal.Val

end
-- ==== Proof.RefSide.lean ====
/-
  The reference program's side of the comparison.

  The reference reshapes each of its two arguments to 256 x 65536, stacks them into 512 rows, and takes two quantities
  of the stack: every row's squared norm (a host sum of the elementwise square along the row) and the rows' Gram
  matrix (the stack times its transpose). Every later operation is the shared tail of those two. Here the run of the
  program is restated in that form, and at the exact instance the two quantities are read at an index: a row's squared
  norm is the sum of the squares of the stacked row, a Gram entry is the sum of the products of two stacked rows.
-/
import proofs.«400202_j48155173323219_3_alg».proof.Proof.RefRun
import proofs.«400202_j48155173323219_3_alg».proof.Proof.Spec
import proofs.«400202_j48155173323219_3_alg».proof.Proof.Gen.KernelIdeal
import Idealize.ShloMosaic.Lib.Pipeline.Value
import Idealize.ShloMosaic.Lib.ValueIdx
import Idealize.ShloMosaic.PureOps.Ideal.Laws

noncomputable section

namespace Cert.ReferenceIdeal.Side
open Cert.ReferenceIdeal Cert.ReferenceIdeal.Gen Idealize.ShloMosaic Idealize.ShloMosaic.TcCoe Idealize.SL.Sem Idealize.ShloMosaic.StableHlo
variable {F : FTy → Type} [FloatOps F]

/-- The 512 stacked rows. -/
def rows (X0 X1 : (⟨S256x65536, .f32⟩ : BufTy).Contents (Elt F)) : (⟨S512x65536, .f32⟩ : BufTy).Contents (Elt F) :=
  concatenate S512x65536 0 [⟨S256x65536, X0⟩, ⟨S256x65536, X1⟩] concatenates_S256x65536_S256x65536_S512x65536_d0
/-- Each row's squared norm, as the host computes it. -/
def sqR (X0 X1 : (⟨S256x65536, .f32⟩ : BufTy).Contents (Elt F)) : (⟨S512, .f32⟩ : BufTy).Contents (Elt F) :=
  Host.reduceAdd (mulf (rows X0 X1) (rows X0 X1)) (constant S_ .f32 0x00000000#32) reducesTo_S512x65536_S512_d1 h_S_
/-- The rows' Gram matrix, as the host computes it. -/
def gramR (X0 X1 : (⟨S256x65536, .f32⟩ : BufTy).Contents (Elt F)) : (⟨S512x512, .f32⟩ : BufTy).Contents (Elt F) :=
  Host.dotGeneral dot_S512x65536_S65536x512_S512x512_1_0_0_1_n_n none (rows X0 X1) (transpose S65536x512 [1, 0] (rows X0 X1) transposes_S512x65536_S65536x512_1_0)
/-- An argument array reshaped to 256 x 65536. -/
abbrev flat (x : (⟨S256x256x16x16, .f32⟩ : BufTy).Contents (Elt F)) : (⟨S256x65536, .f32⟩ : BufTy).Contents (Elt F) :=
  shapeCast S256x65536 x shapeCasts_S256x256x16x16_S256x65536

/-! ## The stack, the row sum and the product of the stack with its transpose, at an index -/

/-- A stacked row read at a column: rows below 256 are the first piece's, the others the second piece's, 256 less. -/
theorem rows_apply (X0 X1 : (⟨S256x65536, .f32⟩ : BufTy).Contents (Elt F)) (r : Fin 512) (k : Fin 65536) :
    rows X0 X1 (ValueIdx.ix2 r k)
      = Cert.Spec.stacked (fun p k => X0 (ValueIdx.ix2 p k)) (fun p k => X1 (ValueIdx.ix2 p k)) r k := by
  unfold rows Cert.Spec.stacked
  split
  · next h =>
    exact concatenate_pair_apply_left (0 : Fin S512x65536.rank) X0 X1
      concatenates_S256x65536_S256x65536_S512x65536_d0 (ValueIdx.ix2 r k) rfl (ValueIdx.ix2 ⟨r.val, h⟩ k)
      (fun b => by match b with | ⟨0, _⟩ => rfl | ⟨1, _⟩ => rfl)
  · next h =>
    exact concatenate_pair_apply_right (0 : Fin S512x65536.rank) X0 X1
      concatenates_S256x65536_S256x65536_S512x65536_d0 (ValueIdx.ix2 r k) rfl rfl
      (ValueIdx.ix2 ⟨r.val - 256, by have := r.isLt; omega⟩ k)
      (fun b hb => by match b, hb with | ⟨0, _⟩, hb => exact absurd rfl hb | ⟨1, _⟩, _ => rfl)
      (by show (r.val - 256) + 256 = r.val; omega)

/-- The host's sum along a row from the zero word, at the exact instance: the sum of the row's entries. -/
theorem rowSum_apply (y : (⟨S512x65536, .f32⟩ : BufTy).Contents (Elt Ideal)) (r : Fin 512) :
    Host.reduceAdd (F := Ideal) y (constant S_ .f32 0x00000000#32) reducesTo_S512x65536_S512_d1 h_S_ (ValueIdx.ix1 r)
      = ∑ k : Fin 65536, y (ValueIdx.ix2 r k) := by
  simp only [Host.reduceAdd, Ideal.hostReduceAdd_def]
  rw [Ideal.hostReduceAdd_single reducesTo_S512x65536_S512_d1 (by decide)]
  rw [show (constant (F := Ideal) S_ .f32 0x00000000#32) (Shape.Idx.first h_S_) = 0 from Ideal.ofBits_zero_f32, zero_add]
  refine Finset.sum_congr rfl fun k _ => ?_
  exact congrArg y (funext fun a => Fin.ext (by match a with | ⟨0, _⟩ => rfl | ⟨1, _⟩ => rfl))

/-- At the exact instance a row's squared norm is the sum of its squares. -/
theorem sqR_apply (X0 X1 : (⟨S256x65536, .f32⟩ : BufTy).Contents (Elt Ideal)) (r : Fin 512) :
    sqR (F := Ideal) X0 X1 (ValueIdx.ix1 r)
      = ∑ k : Fin 65536, Cert.Spec.stacked (fun p k => X0 (ValueIdx.ix2 p k)) (fun p k => X1 (ValueIdx.ix2 p k)) r k
          * Cert.Spec.stacked (fun p k => X0 (ValueIdx.ix2 p k)) (fun p k => X1 (ValueIdx.ix2 p k)) r k := by
  unfold sqR
  rw [rowSum_apply]
  refine Finset.sum_congr rfl fun k _ => ?_
  rw [ValueIdx.mulf_apply, rows_apply]

/-! The four coordinates of the product's operand indices, one lemma per operand axis. -/

theorem lhs_axis0 (i : S512x512.Idx) (q : dot_S512x65536_S65536x512_S512x512_1_0_0_1_n_n.contr.Idx) :
    (dot_S512x65536_S65536x512_S512x512_1_0_0_1_n_n.lhsIdx i q 0).val = (i 0).val := by
  unfold DotDims.lhsIdx
  rw [dif_neg (show ¬(0 : Fin S512x65536.rank) ∈ dot_S512x65536_S65536x512_S512x512_1_0_0_1_n_n.lhsBatch by decide), dif_pos (show (0 : Fin S512x65536.rank) ∈ dot_S512x65536_S65536x512_S512x512_1_0_0_1_n_n.lhsNonContracting by decide)]
  rfl
theorem lhs_axis1 (i : S512x512.Idx) (q : dot_S512x65536_S65536x512_S512x512_1_0_0_1_n_n.contr.Idx) :
    (dot_S512x65536_S65536x512_S512x512_1_0_0_1_n_n.lhsIdx i q 1).val = (q ⟨0, by decide⟩).val :=
  dot_S512x65536_S65536x512_S512x512_1_0_0_1_n_n.lhsIdx_val_of_single rfl i q
theorem rhs_axis0 (i : S512x512.Idx) (q : dot_S512x65536_S65536x512_S512x512_1_0_0_1_n_n.contr.Idx) :
    (dot_S512x65536_S65536x512_S512x512_1_0_0_1_n_n.rhsIdx i q 0).val = (q ⟨0, by decide⟩).val :=
  dot_S512x65536_S65536x512_S512x512_1_0_0_1_n_n.rhsIdx_val_of_single rfl i q
theorem rhs_axis1 (i : S512x512.Idx) (q : dot_S512x65536_S65536x512_S512x512_1_0_0_1_n_n.contr.Idx) :
    (dot_S512x65536_S65536x512_S512x512_1_0_0_1_n_n.rhsIdx i q 1).val = (i 1).val := by
  unfold DotDims.rhsIdx
  rw [dif_neg (show ¬(1 : Fin S65536x512.rank) ∈ dot_S512x65536_S65536x512_S512x512_1_0_0_1_n_n.rhsBatch by decide), dif_pos (show (1 : Fin S65536x512.rank) ∈ dot_S512x65536_S65536x512_S512x512_1_0_0_1_n_n.rhsNonContracting by decide)]
  rfl

/-- The host's product of a 512 x 65536 array with a 65536 x 512 one, at the exact instance: entry (r, s) is the sum
    over the shared axis of the products. -/
theorem dot_apply (y0 : FVec Ideal S512x65536 .f32) (y1 : FVec Ideal S65536x512 .f32)
    (r s : Fin 512) :
    Host.dotGeneral (F := Ideal) dot_S512x65536_S65536x512_S512x512_1_0_0_1_n_n none y0 y1 (ValueIdx.ix2 r s)
      = ∑ k : Fin 65536, y0 (ValueIdx.ix2 r k) * y1 (ValueIdx.ix2 k s) := by
  simp only [Host.dotGeneral]
  rw [Ideal.dotGeneral_apply, ← Equiv.sum_comp (ValueIdx.contrEquiv1 dot_S512x65536_S65536x512_S512x512_1_0_0_1_n_n 65536 rfl rfl).symm]
  refine Finset.sum_congr rfl fun k _ => ?_
  have hk := ValueIdx.contrEquiv1_symm_val dot_S512x65536_S65536x512_S512x512_1_0_0_1_n_n 65536 rfl rfl k
  have el : dot_S512x65536_S65536x512_S512x512_1_0_0_1_n_n.lhsIdx (ValueIdx.ix2 r s) ((ValueIdx.contrEquiv1 dot_S512x65536_S65536x512_S512x512_1_0_0_1_n_n 65536 rfl rfl).symm k) = ValueIdx.ix2 r k := funext fun a => Fin.ext (by
    match a with
    | ⟨0, _⟩ => exact lhs_axis0 _ _
    | ⟨1, _⟩ => exact (lhs_axis1 _ _).trans hk)
  have er : dot_S512x65536_S65536x512_S512x512_1_0_0_1_n_n.rhsIdx (ValueIdx.ix2 r s) ((ValueIdx.contrEquiv1 dot_S512x65536_S65536x512_S512x512_1_0_0_1_n_n 65536 rfl rfl).symm k) = ValueIdx.ix2 k s := funext fun a => Fin.ext (by
    match a with
    | ⟨0, _⟩ => exact (rhs_axis0 _ _).trans hk
    | ⟨1, _⟩ => exact rhs_axis1 _ _)
  rw [el, er]

/-- The transposed stack at (k, s) is the stack at (s, k). -/
theorem rowsT_apply (y : (⟨S512x65536, .f32⟩ : BufTy).Contents (Elt F)) (k : Fin 65536) (s : Fin 512) :
    transpose S65536x512 [1, 0] y transposes_S512x65536_S65536x512_1_0 (ValueIdx.ix2 k s) = y (ValueIdx.ix2 s k) :=
  transpose_apply [1, 0] y transposes_S512x65536_S65536x512_1_0 (ValueIdx.ix2 k s) (ValueIdx.ix2 s k) (fun b => match b with
    | ⟨0, _⟩ => rfl
    | ⟨1, _⟩ => rfl)

/-- At the exact instance a Gram entry is the sum of the products of the two rows. -/
theorem gramR_apply (X0 X1 : (⟨S256x65536, .f32⟩ : BufTy).Contents (Elt Ideal)) (r s : Fin 512) :
    gramR (F := Ideal) X0 X1 (ValueIdx.ix2 r s)
      = ∑ k : Fin 65536, Cert.Spec.stacked (fun p k => X0 (ValueIdx.ix2 p k)) (fun p k => X1 (ValueIdx.ix2 p k)) r k
          * Cert.Spec.stacked (fun p k => X0 (ValueIdx.ix2 p k)) (fun p k => X1 (ValueIdx.ix2 p k)) s k := by
  unfold gramR
  rw [dot_apply]
  refine Finset.sum_congr rfl fun k _ => ?_
  rw [rowsT_apply, rows_apply, rows_apply]

/-! ## The run -/

set_option maxRecDepth 16384 in
set_option maxHeartbeats 8000000 in
/-- The composed term the run states for the result is the shared tail of the reference's squared norms and Gram
    matrix: the same operations on the same literals, compared by unfolding. -/
theorem res_eq (m : (ℓ : Loc nD τ sig) → Buf (Elt F) ℓ) (c : Dev nD) :
    ValueP.res_main_v59 m c
      = Cert.Spec.tail (sqR (flat (m ((c.tc : Thread nD τ).loc main_arg0))) (flat (m ((c.tc : Thread nD τ).loc main_arg1))))
          (gramR (flat (m ((c.tc : Thread nD τ).loc main_arg0))) (flat (m ((c.tc : Thread nD τ).loc main_arg1)))) := by
  unfold ValueP.res_main_v59 Cert.Spec.tail Cert.Spec.tiledEye Cert.Spec.offDiag sqR gramR rows flat
  rfl

/-- The reference's run: its result is the shared tail of its sq and gram; the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
        = Cert.Spec.tail (sqR (flat (m ((c.tc : Thread nD τ).loc main_arg0))) (flat (m ((c.tc : Thread nD τ).loc main_arg1))))
            (gramR (flat (m ((c.tc : Thread nD τ).loc main_arg0))) (flat (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (res_eq m c), (h c).2.1, (h c).2.2⟩) (ValueP.run m ρ)

end Cert.ReferenceIdeal.Side

end
-- ==== Proof.lean ====
/-
  The certificate of a fused Gram-matrix kernel for a dense contrastive loss against its plain jnp reference.

  Both programs take two f32[256, 256, 16, 16] arguments, reshape each to 256 rows of length 65536, and compute a loss
  from the squared norms `sq` of the 512 stacked rows and their Gram matrix `gram`; from `sq` and `gram` on, the two
  programs are the same host operations on the same literals (`Cert.Spec.tail`). The reference gets `sq` by one host
  sum of squares per row and `gram` by one matrix product of the stack with its transpose. The kernel walks the 65536
  columns in sixteen chunks of 4096 — two halves of eight, each half accumulating into its own partial block, reset at
  the half's first chunk — adding per chunk the four 256 x 256 quadrant products and the rows' sums of squares, and the
  host adds the two halves. Over the extended reals (a change of float format is the identity, every sum exact) both
  are the same sums of the same products, regrouped: addition is commutative and associative, the zero a reset stores or
  a sum starts from is the unit, so the inputs' finiteness is never used.

    frame_Kernel, frame_KernelIdeal — the pipeline's launch theorem over the body run once per case of its one branch.
    frame_ReferenceIdeal — the reference's run of its host operations, the result dropped.
    preserves_Kernel_KernelIdeal — the ideal pass rewrote nothing.
    algebraic_KernelIdeal_ReferenceIdeal — both results are `tail sq gram`, and `sq`, `gram` agree index by index.
-/
import proofs.«400202_j48155173323219_3_alg».proof.Defs
import proofs.«400202_j48155173323219_3_alg».proof.Proof.Gen.Kernel
import proofs.«400202_j48155173323219_3_alg».proof.Proof.Gen.KernelIdeal
import proofs.«400202_j48155173323219_3_alg».proof.Proof.Gen.ReferenceIdeal
import proofs.«400202_j48155173323219_3_alg».proof.Proof.Gen.Pre_finite_inputs
import proofs.«400202_j48155173323219_3_alg».proof.Proof.K.Frame
import proofs.«400202_j48155173323219_3_alg».proof.Proof.KI.Value
import proofs.«400202_j48155173323219_3_alg».proof.Proof.RefSide
import Idealize.ShloMosaic.Adequacy
import Idealize.ShloMosaic.Init

noncomputable section

namespace Cert.Proof

open Idealize.ShloMosaic Idealize.ShloMosaic.TcCoe Idealize.SL.Sem
open Idealize.ShloMosaic.ValueIdx (ix1 ix2 eq_ix1 eq_ix2)

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Side.run (F := Ideal) m ρ)

theorem preserves : Cert.preserves_Kernel_KernelIdeal := trivial

section
open Cert.KernelIdeal Cert.KernelIdeal.Fr Cert.KernelIdeal.Val

/-- The idealized kernel's run, read: its result is the shared tail of the squared norms and the Gram matrix the host
    assembles from the two partial blocks; both arguments end as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59) = Cert.Spec.tail (Cert.Spec.sqOf (A3 m c)) (Cert.Spec.gramOf (A2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v59 (Pipeline.mem_restRefs_of main_v59 (by decide) (by decide))).trans (tail_v59 m (dats m) c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The reference's squared norms of the reshaped arguments are the kernel's. -/
theorem sq_eq (m : (ℓ : Loc nD τ sig) → Buf (Elt Ideal) ℓ) (c : Dev nD) :
    Cert.ReferenceIdeal.Side.sqR (F := Ideal) (Cert.ReferenceIdeal.Side.flat (m ((c.tc : Thread nD τ).loc main_arg0)))
        (Cert.ReferenceIdeal.Side.flat (m ((c.tc : Thread nD τ).loc main_arg1)))
      = Cert.Spec.sqOf (A3 m c) := by
  funext i
  obtain ⟨r, rfl⟩ : ∃ r : Fin 512, i = ix1 r := ⟨i 0, eq_ix1 i⟩
  rw [Cert.ReferenceIdeal.Side.sqR_apply]
  refine Eq.trans ?_ (sqK_apply m c r).symm
  exact Finset.sum_congr rfl fun k _ => by rw [R_eq]

/-- The reference's Gram matrix of the reshaped arguments is the kernel's. -/
theorem gram_eq (m : (ℓ : Loc nD τ sig) → Buf (Elt Ideal) ℓ) (c : Dev nD) :
    Cert.ReferenceIdeal.Side.gramR (F := Ideal) (Cert.ReferenceIdeal.Side.flat (m ((c.tc : Thread nD τ).loc main_arg0)))
        (Cert.ReferenceIdeal.Side.flat (m ((c.tc : Thread nD τ).loc main_arg1)))
      = Cert.Spec.gramOf (A2 m c) := by
  funext i
  obtain ⟨r, s, rfl⟩ : ∃ r s : Fin 512, i = ix2 r s := ⟨i 0, i 1, eq_ix2 i⟩
  rw [Cert.ReferenceIdeal.Side.gramR_apply]
  refine Eq.trans ?_ (gramK_apply m c r s).symm
  exact Finset.sum_congr rfl fun k _ => by rw [R_eq, R_eq]

end

/-- From memories that agree on the arguments both programs end at the shared tail of equal squared norms and equal
    Gram matrices. -/
theorem algebraic : Cert.algebraic_KernelIdeal_ReferenceIdeal := by
  intro m ρ m' ρ' _ hagree
  refine ⟨fun c => Cert.Spec.tail (Cert.Spec.sqOf (Cert.KernelIdeal.Val.A3 m c)) (Cert.Spec.gramOf (Cert.KernelIdeal.Val.A2 m c)),
    kernel_run m ρ, ?_⟩
  refine (θ_run Cert.ReferenceIdeal.defs _ _).mono (fun _ h c => ⟨(h c).1.trans ?_, (h c).2⟩)
    (Cert.ReferenceIdeal.Side.run (F := Ideal) m' ρ')
  rw [(hagree c).1, (hagree c).2, sq_eq m c, gram_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
